-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S128x512 : Shape := ⟨2, ![128, 512]⟩
abbrev S1024x512 : Shape := ⟨2, ![1024, 512]⟩
abbrev S1024 : Shape := ⟨1, ![1024]⟩

abbrev nBuf : Space → Nat
  | .hbm => 20
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .bf16⟩
  | .hbm, ⟨13, _⟩ => ⟨S8192x1, .i32⟩
  | .hbm, ⟨14, _⟩ => ⟨S1x8192, .i32⟩
  | .hbm, ⟨15, _⟩ => ⟨S8192x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S512x128, .bf16⟩
  | .local _ .vmem, ⟨3, _⟩ => ⟨S512x128, .bf16⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v60 : BitVec 1 := Scalar.cmpi .eq arg1 c15_i32
  let v61 : BitVec 32 := Scalar.extui v60
  let c0_i32_25 : BitVec 32 := 0#32
  let v62 : BitVec 1 := Scalar.cmpi .ne v61 c0_i32_25
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  transposes_S512x128_p1_0_S128x512 : S512x128.Transposes [1, 0] S128x512
  iota_S1024x1_d0_w32 : S1024x1.Iotas .tc 32 [0]
  iota_S1x512_d1_w32 : S1x512.Iotas .tc 32 [1]
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  natLt_1_32 : 1 < 32
  reduces_S1024x512_S1024 : S1024x512.Reduces [1] S1024
  shapeCasts_S1024_S1024x1 : S1024.ShapeCasts S1024x1
  reducesTo_S8192x1_S_d0_1 : S8192x1.ReducesTo [0, 1] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .bf16 = 32 ∨ (Rect.block (s := S8192x128) S512x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v5) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S128x8192 : Shape := ⟨2, ![128, 8192]⟩
abbrev S8192x8192 : Shape := ⟨2, ![8192, 8192]⟩
abbrev S1x8192 : Shape := ⟨2, ![1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S128x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .f32⟩
  | .hbm, ⟨45, _⟩ => ⟨S8192, .f32⟩
  | .hbm, ⟨46, _⟩ => ⟨S8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Kit.lean ====
/-
  What the three whole-body runs of the kernel, its proof data and its launch share.

  @main is: the row norms and the division by them (13 host operations), the pallas_call, then the mean (4 host operations).
  The grid is 8 row tiles by 16 column tiles, point t = 16·i + j. The body resets its three accumulators where j = 0 and
  finishes the row tile's losses into the output block where j = 15; so a point is in one of three cases — first column tile,
  a middle one, the last — and the output window is idle (and not written back) except in the last.
-/
import proofs.«147355_j45930380264015_1_alg».proof.Proof.Gen.Kernel.Launch
import proofs.«147355_j45930380264015_1_alg».proof.Proof.Gen.Kernel.Skeleton
import proofs.«147355_j45930380264015_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the 13 host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region CONTINUED BY the four host operations of the mean, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "first column tile": the reset's condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "last column tile": the finish's condition. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The class's region invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.KB.RunA.lean ====
/-
  The kernel's body run whole at a point of the FIRST column tile (the reset taken, the finish not).
-/
import proofs.«147355_j45930380264015_1_alg».proof.Proof.KB.Kit

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the three accumulators may hold anything; the output's buffer is handed back untouched. What the body's stores leave in each
    accumulator, as pieces (last first), with the body's triple. -/
noncomputable def kernelRun0_A (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) :
    Σ' (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.KB.RunB.lean ====
/-
  The kernel's body run whole at a point of a MIDDLE column tile (neither the reset nor the finish taken).
-/
import proofs.«147355_j45930380264015_1_alg».proof.Proof.KB.RunA

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the accumulators hold what the point before left (`xs·`); the output's buffer is handed back untouched. -/
noncomputable def kernelRun0_B (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) :
    Σ' (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Fr

end
-- ==== Proof.KB.RunC.lean ====
/-
  The kernel's body run whole at a point of the LAST column tile (the reset not taken, the finish taken).
-/
import proofs.«147355_j45930380264015_1_alg».proof.Proof.KB.RunB

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the accumulators hold what the point before left (`xs·`); the output's buffer, at anything, ends with the finish's store. -/
noncomputable def kernelRun0_C (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) :
    Σ' (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Fr

end
-- ==== Proof.KB.Data.lean ====
/-
  THE PROOF DATA of the kernel's pipeline and its BODY OBLIGATION.

  What the output block and the three accumulators hold after each of the 128 points, by recursion on the position (the first
  column tile of a row tile resets the accumulators, every column tile adds its share, the last finishes the row tile's losses
  into the output block); the invariant carrying the accumulators from point to point; the proof data; each input's staging
  buffer at its block at every point; and the body obligation, by cases on the column tile, from the three whole-body runs.
-/
import proofs.«147355_j45930380264015_1_alg».proof.Proof.KB.RunC

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the runs' pieces read back -/

/-- At a point of the first column tile (the reset taken, the finish not) nothing is stored into the output block: a placeholder (the run's pieces for it read back
    over junk) that nothing consults, since there the block is neither written back nor read at the next point. -/
def out0_A_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

/-- At a point of the first column tile (the reset taken, the finish not) the pieces stored into accumulator 0 tile it, so they cover it. -/
theorem scover0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- What such a point leaves in accumulator 0: its pieces read back over junk. -/
def sout0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.1)

/-- At a point of the first column tile (the reset taken, the finish not) the pieces stored into accumulator 1 tile it, so they cover it. -/
theorem scover0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S1024x1.size (by sl_kernel_rfl) y

/-- What such a point leaves in accumulator 1: its pieces read back over junk. -/
def sout0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.1)

/-- At a point of the first column tile (the reset taken, the finish not) the pieces stored into accumulator 2 tile it, so they cover it. -/
theorem scover0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S1024x1.size (by sl_kernel_rfl) y

/-- What such a point leaves in accumulator 2: its pieces read back over junk. -/
def sout0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.2.1)

/-- At a point of a middle column tile (neither conditional taken) nothing is stored into the output block: a placeholder (the run's pieces for it read back
    over junk) that nothing consults, since there the block is neither written back nor read at the next point. -/
def out0_B_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1 xs2).1)

/-- At a point of a middle column tile (neither conditional taken) the pieces stored into accumulator 0 tile it, so they cover it. -/
theorem scover0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What such a point leaves in accumulator 0: its pieces read back over junk. -/
def sout0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).2.1)

/-- At a point of a middle column tile (neither conditional taken) the pieces stored into accumulator 1 tile it, so they cover it. -/
theorem scover0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What such a point leaves in accumulator 1: its pieces read back over junk. -/
def sout0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.2.1)

/-- At a point of a middle column tile (neither conditional taken) the pieces stored into accumulator 2 tile it, so they cover it. -/
theorem scover0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S1024x1.size (by sl_kernel_rfl) y

/-- What such a point leaves in accumulator 2: its pieces read back over junk. -/
def sout0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.2.1)

/-- At a point of the last column tile (the finish taken) the pieces stored into the output block tile it, so they cover it. -/
theorem cover0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S1024x1.size (by sl_kernel_rfl) y

/-- What the finish leaves in the output block: its pieces read back over junk. -/
def out0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1 xs2).1)

/-- At a point of the last column tile (the finish taken) the pieces stored into accumulator 0 tile it, so they cover it. -/
theorem scover0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What such a point leaves in accumulator 0: its pieces read back over junk. -/
def sout0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1 xs2).2.1)

/-- At a point of the last column tile (the finish taken) the pieces stored into accumulator 1 tile it, so they cover it. -/
theorem scover0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What such a point leaves in accumulator 1: its pieces read back over junk. -/
def sout0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1 xs2).2.2.1)

/-- At a point of the last column tile (the finish taken) the pieces stored into accumulator 2 tile it, so they cover it. -/
theorem scover0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S1024x1.size (by sl_kernel_rfl) y

/-- What such a point leaves in accumulator 2: its pieces read back over junk. -/
def sout0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 x3 xs0 xs1 xs2).2.2.2.1)

/-! ## What the output block and the accumulators hold after each point -/

/-- THE ACCUMULATION. What the output's staging buffer and the three accumulators hold after the body at position `n`
    (output, accumulator 0, accumulator 1, accumulator 2): the case the position is in — `n % 16 = 0` the first column tile,
    `n % 16 = 15` the last, else a middle one —, run at the point's memrefs and input blocks; the first column tile reads nothing
    of the point before, the other two take the three accumulators as the point before left them. The output component means
    something at the last column tile only. No position is both first and last (`False.elim`). -/
def outsAt0 (c : Dev nD) : (n : ℕ) → n < cfg0.N → Vec F S1024x1 .f32 × Vec F S1024x1 .f32 × Vec F S1024x1 .f32 × Vec F S1024x1 .f32
  | 0, hn =>
      (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
       sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a first column tile: that case's contents. -/
theorem outsAt0_A (c : Dev nD) (t : Fin cfg0.N) (h0 : t.val % 16 = 0) (h1 : ¬t.val % 16 = 15) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
       sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
       sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a middle column tile: that case's contents, over what the point before left in the accumulators. -/
theorem outsAt0_B (c : Dev nD) (t : Fin cfg0.N) (h0 : ¬t.val % 16 = 0) (h1 : ¬t.val % 16 = 15) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column tile: that case's contents, over what the point before left in the accumulators. -/
theorem outsAt0_C (c : Dev nD) (t : Fin cfg0.N) (h0 : ¬t.val % 16 = 0) (h1 : t.val % 16 = 15) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer of the kernel's own at
    anything, the generator register at some state); afterwards the three accumulators at what the point before left in them
    (`outsAt0`'s last three components) and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at `outsAt0`'s first component; the invariant `PhiS`; nothing owed. The two windows on
    the normalized rows read ONE array, so each holds one half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- The shares held of the arrays: the two windows on the normalized rows one half each, the others whole. -/
theorem hq0 (c : Dev nD) : (dats m 0 c).q 0 = fullShare.left := by dsimp only [dats]
theorem hq1 (c : Dev nD) : (dats m 0 c).q 1 = fullShare.right := by dsimp only [dats]
theorem hq2 (c : Dev nD) : (dats m 0 c).q 2 = fullShare := by dsimp only [dats]
theorem hq3 (c : Dev nD) : (dats m 0 c).q 3 = fullShare := by dsimp only [dats]
theorem hq4 (c : Dev nD) : (dats m 0 c).q 4 = fullShare := by dsimp only [dats]
/-- The core owes nothing at any point. -/
theorem howed (c : Dev nD) (t : Fin (cfg0.N + 1)) : (dats m 0 c).owed t = 0 := rfl

/-- Input window 0's current staging buffer holds its block at every point, fetched there or not, for any proof data whose
    array is the region-entry contents and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data whose
    array is the region-entry contents and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data whose
    array is the region-entry contents and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data whose
    array is the region-entry contents and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The four inputs' memrefs hold their blocks (`before0_w`); the position's residue mod 16 says which of
    the three cases the point is in, and that case's run applies: the invariant hands it the three accumulators — at what the
    point before left, or at anything at the very first point and at every other first column tile, where they are reset — and
    takes them back at this point's contents (the stored pieces cover them); the output's buffer comes back untouched where the
    point is idle for it, and at the finish's store (which covers it) at a last column tile; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1 sout0_C_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1 sout0_B_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.Kernel.Fr

end
-- ==== Proof.KB.Launch.lean ====
/-
  THE LAUNCH: @main's run from the body obligation, for any proof data over this pipeline whose two windows on the shared array hold complementary halves of it.
-/
import proofs.«147355_j45930380264015_1_alg».proof.Proof.KB.Kit

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The mean: the four host operations after the region, applied to the per-row losses the region leaves. -/
def tailVal (y : FVec F S8192x1 .f32) : FVec F S_ .f32 :=
  Host.divf (Host.reduceAdd y (constant S_ .f32 0x00000000#32) reducesTo_S8192x1_S_d0_1 h_S_) (constant S_ .f32 0x46000000#32)

variable (m : (ℓ : Loc nD τ sig) → Buf (Elt F) ℓ) (ρ : Dev nD → PrngReg)

/-! ## The arrays: four buffers behind five windows -/

/-- The four distinct arrays behind the five windows, conjoined one by one. -/
theorem bigSep_arrs {M : Type} [URA M] (Φ : Ref sig .tc → sProp M) :
    bigSep (Finset.univ.image (Pipeline.arrRef spec0)) Φ = iprop(Φ main_v5 ∗ Φ main_v6 ∗ Φ main_v7 ∗ Φ main_v8) :=
  bigSep_eq_bigSepL_of_eq [main_v5, main_v6, main_v7, main_v8] (by decide) (by decide) Φ

/-- The proof data's arrays, window by window: the normalized rows at the two halves of the full share (windows 0 and 1), the
    two label arrays and the output array whole. -/
theorem arrays_chain (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (G : (w : Fin cfg0.W) → Buf (Elt F) ((cfg0.win w).arr.view.loc (c.tc : Thread nD τ))) :
    (dat.arrays G : sProp 𝕄)
      = iprop((((c.tc : Thread nD τ).loc main_v5) ↦{fullShare.left} G 0) ∗ (((c.tc : Thread nD τ).loc main_v5) ↦{fullShare.right} G 1)
          ∗ (((c.tc : Thread nD τ).loc main_v6) ↦{fullShare} G 2) ∗ (((c.tc : Thread nD τ).loc main_v7) ↦{fullShare} G 3)
          ∗ (((c.tc : Thread nD τ).loc main_v8) ↦{fullShare} G 4)) := by
  have hs0 : dat.share 0 = fullShare.left := by unfold Dat.share; exact (if_neg (by decide)).trans hq0
  have hs1 : dat.share 1 = fullShare.right := by unfold Dat.share; exact (if_neg (by decide)).trans hq1
  have hs2 : dat.share 2 = fullShare := by unfold Dat.share; exact (if_neg (by decide)).trans hq2
  have hs3 : dat.share 3 = fullShare := by unfold Dat.share; exact (if_neg (by decide)).trans hq3
  have hs4 : dat.share 4 = fullShare := by unfold Dat.share; exact if_pos (by decide)
  unfold Dat.arrays
  rw [bigSep_W0, hs0, hs1, hs2, hs3, hs4]
  simp only [View.set_whole]

/-- At the region's entry: the array buffers, each whole at the full share, make the proof data's arrays — the normalized
    rows' buffer split along its share between the two windows that read it. -/
theorem hsplit0 (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (hA : ∀ w, dat.A w = V m c (Pipeline.arrRef spec0 w)) :
    (Pipeline.arrBufs spec0 c (V m c) : sProp 𝕄) ⊢ dat.arrays (dat.arrAt · 0) := by
  rw [arrays_chain c dat hq0 hq1 hq2 hq3]
  unfold Pipeline.arrBufs
  rw [bigSep_arrs]
  simp only [Dat.arrAt, hA]
  iintro ⟨H5, H6, H7, H8⟩
  ihave H5' := (pointsTo_share (PosShare.mem_left_op_right fullShare)).1 $$ H5
  icases H5' with ⟨H5a, H5b⟩
  isplitl [H5a]; · iexact H5a
  isplitl [H5b]; · iexact H5b
  isplitl [H6]; · iexact H6
  isplitl [H7]; · iexact H7
  iexact H8

/-! ## The mean after the region -/

/-- The buffers the mean's four operations touch: the output array, which they read, and the four they write. -/
abbrev tailList : List (Ref sig .tc) := [main_v8, main_cst_0, main_v9, main_cst_1, main_v10]
def tailSet : Finset (DevRef τ sig) := tailList.toFinset.map ⟨Proc.devRef (sig := sig) (.tc : Proc τ), Proc.devRef_injective _⟩

theorem mem_tailSet {b : Ref sig .tc} (h : b ∈ tailList) : Proc.devRef (τ := τ) .tc b ∈ tailSet :=
  Finset.mem_map_of_mem _ (List.mem_toFinset.mpr h)

theorem hostOps1_tail : (hostOps1 : List (HloOp τ sig (Elt F))).Forall fun op => op.bufs ⊆ tailSet :=
  ⟨Finset.singleton_subset_iff.mpr (mem_tailSet (by decide)),
   Finset.insert_subset (mem_tailSet (by decide)) (Finset.insert_subset (mem_tailSet (by decide)) (Finset.singleton_subset_iff.mpr (mem_tailSet (by decide)))),
   Finset.singleton_subset_iff.mpr (mem_tailSet (by decide)),
   Finset.insert_subset (mem_tailSet (by decide)) (Finset.insert_subset (mem_tailSet (by decide)) (Finset.singleton_subset_iff.mpr (mem_tailSet (by decide))))⟩

/-- Those five buffers held whole, one by one. -/
theorem held_tailSet (c : Dev nD) (W : Valuation τ sig (Elt F)) :
    (StableHlo.held (c.tc : Thread nD τ) tailSet W : sProp 𝕄)
      = iprop((((c.tc : Thread nD τ).loc main_v8) ↦{fullShare} W (Proc.devRef .tc main_v8))
          ∗ (((c.tc : Thread nD τ).loc main_cst_0) ↦{fullShare} W (Proc.devRef .tc main_cst_0))
          ∗ (((c.tc : Thread nD τ).loc main_v9) ↦{fullShare} W (Proc.devRef .tc main_v9))
          ∗ (((c.tc : Thread nD τ).loc main_cst_1) ↦{fullShare} W (Proc.devRef .tc main_cst_1))
          ∗ (((c.tc : Thread nD τ).loc main_v10) ↦{fullShare} W (Proc.devRef .tc main_v10))) := by
  unfold StableHlo.held tailSet
  rw [bigSep_map]
  exact bigSep_eq_bigSepL_of_eq tailList rfl (by decide) _

/-- Core `c`'s buffer contents at the region's exit: the output array at `y`, every other buffer as the region found it. -/
def Wx (c : Dev nD) (y : (⟨S8192x1, .f32⟩ : BufTy).Contents (Elt F)) : Valuation τ sig (Elt F) :=
  Function.update (V0 m c) (Proc.devRef .tc main_v8) y

theorem Wx_v8 (c : Dev nD) (y : (⟨S8192x1, .f32⟩ : BufTy).Contents (Elt F)) : Wx m c y (Proc.devRef .tc main_v8) = y :=
  Function.update_self _ _ _

theorem Wx_of_ne (c : Dev nD) (y : (⟨S8192x1, .f32⟩ : BufTy).Contents (Elt F)) {b : Ref sig .tc} (h : b ≠ main_v8) :
    Wx m c y (Proc.devRef .tc b) = V m c b :=
  Function.update_of_ne (StableHlo.devRef_ne_of_ne h) _ _

theorem hostOps1_writes : (hostOps1 : List (HloOp τ sig (Elt F))).Forall fun op =>
    op.writes ⊆ ([main_cst_0, main_v9, main_cst_1, main_v10].map (Proc.devRef (τ := τ) .tc)).toFinset := by
  simp only [List.Forall, StableHlo.nullary_writes, StableHlo.binary_writes, Finset.singleton_subset_iff, List.mem_toFinset, List.mem_map]
  exact ⟨⟨_, by decide, rfl⟩, ⟨_, by decide, rfl⟩, ⟨_, by decide, rfl⟩, ⟨_, by decide, rfl⟩⟩

/-- The four operations leave every buffer they do not write as it was. -/
theorem after_of_not_mem (c : Dev nD) (y : (⟨S8192x1, .f32⟩ : BufTy).Contents (Elt F)) {b : Ref sig .tc}
    (h : b ∉ [main_cst_0, main_v9, main_cst_1, main_v10]) :
    StableHlo.after hostOps1 (Wx m c y) (Proc.devRef .tc b) = Wx m c y (Proc.devRef .tc b) :=
  StableHlo.after_of_writes_sub hostOps1 (Wx m c y) hostOps1_writes h

/-- The result buffer then holds the mean of the output array. -/
theorem after_v10 (c : Dev nD) (y : (⟨S8192x1, .f32⟩ : BufTy).Contents (Elt F)) : StableHlo.after hostOps1 (Wx m c y) (Proc.devRef .tc main_v10) = tailVal y := by
  unfold tailVal
  after_results
  rw [Wx_v8]

/-- Every buffer outside the five is, after the mean, as the region found it. -/
theorem after_rest (c : Dev nD) (y : (⟨S8192x1, .f32⟩ : BufTy).Contents (Elt F)) {b : Ref sig .tc} (h : b ∉ tailList) :
    StableHlo.after hostOps1 (Wx m c y) (Proc.devRef .tc b) = V m c b :=
  (after_of_not_mem m c y fun hm => h (List.mem_cons_of_mem _ hm)).trans (Wx_of_ne m c y fun e => h (e ▸ List.mem_cons_self))

/-- The output array itself is not written by the mean. -/
theorem after_v8 (c : Dev nD) (y : (⟨S8192x1, .f32⟩ : BufTy).Contents (Elt F)) : StableHlo.after hostOps1 (Wx m c y) (Proc.devRef .tc main_v8) = y :=
  (after_of_not_mem m c y (by decide)).trans (Wx_v8 m c y)

/-- THE MEAN'S RUN: from the region's exit — the boundary, the proof data's arrays as the write-backs leave them, the
    bypassing buffers as the region found them — the four operations run within the output array and the four buffers they
    write, and hand back the arrays untouched and the bypassing buffers at the contents after them. -/
theorem tail_wp (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (Q' : PUnit → sProp 𝕄) :
    iprop((iprop(dat.arrays (dat.arrAt · cfg0.N)
              ∗ Pipeline.unscopedRest spec0 c (fun b => StableHlo.after hostOps1 (Wx m c (dat.arrAt 4 cfg0.N)) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have h := StableHlo.wp_seq (defs := Pipeline.defs (fun q => (cfgs q).toPCfg (Val := Elt F)) defs₀) (Ix := Unit) (Name := ℕ) (U := UR sig nD τ) (Lvl := ℕ)
    (Variants.lift Variants.none) none Set.univ c tailSet (fun _ => pure ⟨⟩) (K := Q') hostOps1
    (List.forall_iff_forall_mem.mp hostOps1_tail) (List.forall_iff_forall_mem.mp hostOps1_fresh) (Wx m c (dat.arrAt 4 cfg0.N))
  rw [held_tailSet, held_tailSet, Wx_v8, Wx_of_ne m c _ (b := main_cst_0) (by decide), Wx_of_ne m c _ (b := main_v9) (by decide),
    Wx_of_ne m c _ (b := main_cst_1) (by decide), Wx_of_ne m c _ (b := main_v10) (by decide), after_v8] at h
  rw [arrays_chain c dat hq0 hq1 hq2 hq3, unscopedRest0_eq, unscopedRest0_eq, Pipeline.chain_cons, Pipeline.chain_nil]
  simp only [after_rest m c _ (b := main_arg0) (by decide), after_rest m c _ (b := main_arg1) (by decide),
    after_rest m c _ (b := main_call0_v0) (by decide), after_rest m c _ (b := main_call0_cst) (by decide),
    after_rest m c _ (b := main_call0_v1) (by decide), after_rest m c _ (b := main_call0_v2) (by decide),
    after_rest m c _ (b := main_v0) (by decide), after_rest m c _ (b := main_cst) (by decide),
    after_rest m c _ (b := main_v1) (by decide), after_rest m c _ (b := main_v2) (by decide),
    after_rest m c _ (b := main_v3) (by decide), after_rest m c _ (b := main_v4) (by decide)]
  iintro ⟨Hk, Hb, ⟨Ha0, Ha1, Ha2, Ha3, Ha4⟩, R0, R1, R2, R3, R4, R5, R6, R7, R8, R9, R10, R11, R12, R13, R14, R15⟩
  iapply h $$ [Hb Ha4 R12 R13 R14 R15]
  · isplitl [Hb]; · iexact Hb
    isplitl [Ha4]; · iexact Ha4
    isplitl [R12]; · iexact R12
    isplitl [R13]; · iexact R13
    isplitl [R14]; · iexact R14
    iexact R15
  iintro ⟨Hb, Ha4, R12, R13, R14, R15⟩
  rw [wp_pure]
  imodintro
  iapply Hk
  isplitl [Ha0 Ha1 Ha2 Ha3 Ha4]
  · isplitl [Ha0]; · iexact Ha0
    isplitl [Ha1]; · iexact Ha1
    isplitl [Ha2]; · iexact Ha2
    isplitl [Ha3]; · iexact Ha3
    iexact Ha4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-! ## The arguments -/

theorem hostOps_before_writes : (List.flatten [hostOps0, hostOps0_1] : List (HloOp τ sig (Elt F))).Forall fun op =>
    op.writes ⊆ ([main_call0_v0, main_call0_cst, main_call0_v1, main_call0_v2, main_v0, main_cst, main_v1, main_v2, main_v3, main_v4,
      main_v5, main_v6, main_v7].map (Proc.devRef (τ := τ) .tc)).toFinset := by
  simp only [hostOps0, hostOps0_1, List.flatten_cons, List.flatten_nil, List.append_nil, List.cons_append, List.nil_append, List.Forall,
    StableHlo.TRef.nullary, StableHlo.TRef.unary, StableHlo.TRef.binary,
    StableHlo.nullary_writes, StableHlo.unary_writes, StableHlo.binary_writes, StableHlo.reshape_writes,
    Finset.singleton_subset_iff, List.mem_toFinset, List.mem_map]
  exact ⟨⟨_, by decide, rfl⟩, ⟨_, by decide, rfl⟩, ⟨_, by decide, rfl⟩, ⟨_, by decide, rfl⟩, ⟨_, by decide, rfl⟩, ⟨_, by decide, rfl⟩, ⟨_, by decide, rfl⟩,
    ⟨_, by decide, rfl⟩, ⟨_, by decide, rfl⟩, ⟨_, by decide, rfl⟩, ⟨_, by decide, rfl⟩, ⟨_, by decide, rfl⟩, ⟨_, by decide, rfl⟩⟩

/-- A buffer none of the operations before the region writes is, at the region's entry, as launched. -/
theorem V_of_not_written (c : Dev nD) {b : Ref sig .tc}
    (h : b ∉ [main_call0_v0, main_call0_cst, main_call0_v1, main_call0_v2, main_v0, main_cst, main_v1, main_v2, main_v3, main_v4, main_v5, main_v6, main_v7]) :
    V m c b = m ((c.tc : Thread nD τ).loc b) :=
  StableHlo.after_of_writes_sub (List.flatten [hostOps0, hostOps0_1]) (fun b => m (c, b)) hostOps_before_writes h

/-! ## The launch -/

/-- @main's run, from a body obligation. Windows 0 and 1 read ONE array (the normalized rows): the proof data hold it at two
    complementary halves of the full share; the other input arrays and the output array are held whole. Every weakly fair
    execution terminates; the result is the mean of the output array as the write-backs leave it; the arguments are unchanged. -/
theorem run_of (dats : (p : Fin 1) → (c : Dev nD) → Dat τ (Elt F) Unit ℕ (UR sig nD τ) ℕ (cfgs p) c)
    (hbody : ∀ c, BodyObligation (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v10) = tailVal ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit0 m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => StableHlo.after hostOps1 (Wx m c ((dats 0 c).arrAt 4 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_wp m c (dats 0 c) (hq0 c) (hq1 c) (hq2 c) (hq3 c) Q')
    (QY := fun c s => ∀ b ∈ Pipeline.restRefs sig spec0, s.mem ((c.tc : Thread nD τ).loc b) = StableHlo.after hostOps1 (Wx m c ((dats 0 c).arrAt 4 cfg0.N)) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (Wx m c ((dats 0 c).arrAt 4 cfg0.N)) (Proc.devRef .tc b)) s')
      isplitl [HU] <;> iassumption)
    (hQ := fun s h c =>
      ⟨((h c).2.2 main_v10 (Pipeline.mem_restRefs_of main_v10 rfl (by decide))).trans (after_v10 m c _),
       ((h c).2.2 main_arg0 (Pipeline.mem_restRefs_of main_arg0 rfl (by decide))).trans
         ((after_rest m c _ (by decide)).trans (V_of_not_written m c (by decide))),
       ((h c).2.2 main_arg1 (Pipeline.mem_restRefs_of main_arg1 rfl (by decide))).trans
         ((after_rest m c _ (by decide)).trans (V_of_not_written m c (by decide)))⟩)

end Cert.Kernel.Fr

end
-- ==== Proof.KB.Run.lean ====
/-
  @main's run for this program: the launch applied to the kernel's proof data. Every weakly fair execution terminates; the result
  is the mean of the per-row losses the write-backs leave; the two arguments are unchanged. The frame is that run with the
  result dropped.
-/
import proofs.«147355_j45930380264015_1_alg».proof.Proof.KB.Data
import proofs.«147355_j45930380264015_1_alg».proof.Proof.KB.Launch

set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, at any float instance. -/
theorem run_main : θ_run defs (onTc (τ := τ) (main (F := F))) ⟨m, fun _ => 0, ρ⟩ (fun r => ∀ c : Dev nD,
      r.2.mem ((c.tc : Thread nD τ).loc main_v10) = tailVal ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (body_obligation m) (hq0 m) (hq1 m) (hq2 m) (hq3 m) (howed m) (A_eq m) (hin m) (hout m)

/-- The frame: it runs to the end, faults nowhere, and leaves both arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.Kernel.Fr

end
-- ==== Proof.KI.Kit.lean ====
/-
  What the three whole-body runs of the kernel, its proof data and its launch share.

  @main is: the row norms and the division by them (13 host operations), the pallas_call, then the mean (4 host operations).
  The grid is 8 row tiles by 16 column tiles, point t = 16·i + j. The body resets its three accumulators where j = 0 and
  finishes the row tile's losses into the output block where j = 15; so a point is in one of three cases — first column tile,
  a middle one, the last — and the output window is idle (and not written back) except in the last.
-/
import proofs.«147355_j45930380264015_1_alg».proof.Proof.Gen.KernelIdeal.Launch
import proofs.«147355_j45930380264015_1_alg».proof.Proof.Gen.KernelIdeal.Skeleton
import proofs.«147355_j45930380264015_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the 13 host operations before it. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region CONTINUED BY the four host operations of the mean, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1] [hostOps1] (by simp only [List.Forall]; exact ⟨hostOps0_sub, hostOps0_1_sub⟩)
    (by simp only [List.Forall]; exact ⟨hostOps0_fresh, hostOps0_1_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "first column tile": the reset's condition, from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- "last column tile": the finish's condition. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- The class's region invariant with the three accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The kernel's body run whole at a point of the FIRST column tile (the reset taken, the finish not).
-/
import proofs.«147355_j45930380264015_1_alg».proof.Proof.KI.Kit

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A: the three accumulators may hold anything; the output's buffer is handed back untouched. What the body's stores leave in each
    accumulator, as pieces (last first), with the body's triple. -/
noncomputable def kernelRun0_A (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) :
    Σ' (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.RunB.lean ====
/-
  The kernel's body run whole at a point of a MIDDLE column tile (neither the reset nor the finish taken).
-/
import proofs.«147355_j45930380264015_1_alg».proof.Proof.KI.RunA

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B: the accumulators hold what the point before left (`xs·`); the output's buffer is handed back untouched. -/
noncomputable def kernelRun0_B (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) :
    Σ' (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨[], ?_, ?_, ?_, fun xi4 E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Fr

end
-- ==== Proof.KI.RunC.lean ====
/-
  The kernel's body run whole at a point of the LAST column tile (the reset not taken, the finish taken).
-/
import proofs.«147355_j45930380264015_1_alg».proof.Proof.KI.RunB

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C: the accumulators hold what the point before left (`xs·`); the output's buffer, at anything, ends with the finish's store. -/
noncomputable def kernelRun0_C (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) :
    Σ' (L4 : List (View.Piece (Elt F) S1024x1 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9) K } := by
  refine ⟨?_, ?_, ?_, ?_, fun E K => ?run⟩
  case run =>
    simp only [cc0__contrastive_kernel_eq_skeleton]; unfold cc0__contrastive_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Fr

end
-- ==== Proof.KI.Data.lean ====
/-
  THE PROOF DATA of the kernel's pipeline and its BODY OBLIGATION.

  What the output block and the three accumulators hold after each of the 128 points, by recursion on the position (the first
  column tile of a row tile resets the accumulators, every column tile adds its share, the last finishes the row tile's losses
  into the output block); the invariant carrying the accumulators from point to point; the proof data; each input's staging
  buffer at its block at every point; and the body obligation, by cases on the column tile, from the three whole-body runs.
-/
import proofs.«147355_j45930380264015_1_alg».proof.Proof.KI.RunC

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves: the runs' pieces read back -/

/-- At a point of the first column tile (the reset taken, the finish not) nothing is stored into the output block: a placeholder (the run's pieces for it read back
    over junk) that nothing consults, since there the block is neither written back nor read at the next point. -/
def out0_A_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VO0_4.read (Elt F) (VO0_4.writes (Elt F) VO0_4.junk (kernelRun0_A c i arg2 harg2 arg3 harg3 arg4 harg4 arg5 harg5 arg6 harg6 arg7 harg7 arg8 harg8 arg9 harg9 hc0 hc1 x0 x1 x2 x3).1)

/-- At a point of the first column tile (the reset taken, the finish not) the pieces stored into accumulator 0 tile it, so they cover it. -/
theorem scover0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- What such a point leaves in accumulator 0: its pieces read back over junk. -/
def sout0_A_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).2.1)

/-- At a point of the first column tile (the reset taken, the finish not) the pieces stored into accumulator 1 tile it, so they cover it. -/
theorem scover0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S1024x1.size (by sl_kernel_rfl) y

/-- What such a point leaves in accumulator 1: its pieces read back over junk. -/
def sout0_A_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.2.1)

/-- At a point of the first column tile (the reset taken, the finish not) the pieces stored into accumulator 2 tile it, so they cover it. -/
theorem scover0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.2.1 S1024x1.size (by sl_kernel_rfl) y

/-- What such a point leaves in accumulator 2: its pieces read back over junk. -/
def sout0_A_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.2.1)

/-- At a point of a middle column tile (neither conditional taken) nothing is stored into the output block: a placeholder (the run's pieces for it read back
    over junk) that nothing consults, since there the block is neither written back nor read at the next point. -/
def out0_B_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 arg8 harg8 arg9 harg9 hc0 hc1 x0 x1 x2 x3 xs0 xs1 xs2).1)

/-- At a point of a middle column tile (neither conditional taken) the pieces stored into accumulator 0 tile it, so they cover it. -/
theorem scover0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What such a point leaves in accumulator 0: its pieces read back over junk. -/
def sout0_B_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).2.1)

/-- At a point of a middle column tile (neither conditional taken) the pieces stored into accumulator 1 tile it, so they cover it. -/
theorem scover0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What such a point leaves in accumulator 1: its pieces read back over junk. -/
def sout0_B_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.2.1)

/-- At a point of a middle column tile (neither conditional taken) the pieces stored into accumulator 2 tile it, so they cover it. -/
theorem scover0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.2.1 S1024x1.size (by sl_kernel_rfl) y

/-- What such a point leaves in accumulator 2: its pieces read back over junk. -/
def sout0_B_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.2.1)

/-- At a point of the last column tile (the finish taken) the pieces stored into the output block tile it, so they cover it. -/
theorem cover0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S1024x1.size (by sl_kernel_rfl) y

/-- What the finish leaves in the output block: its pieces read back over junk. -/
def out0_C_4 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1 xs2).1)

/-- At a point of the last column tile (the finish taken) the pieces stored into accumulator 0 tile it, so they cover it. -/
theorem scover0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What such a point leaves in accumulator 0: its pieces read back over junk. -/
def sout0_C_0 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1 xs2).2.1)

/-- At a point of the last column tile (the finish taken) the pieces stored into accumulator 1 tile it, so they cover it. -/
theorem scover0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What such a point leaves in accumulator 1: its pieces read back over junk. -/
def sout0_C_1 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1 xs2).2.2.1)

/-- At a point of the last column tile (the finish taken) the pieces stored into accumulator 2 tile it, so they cover it. -/
theorem scover0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S1024x1.size (by sl_kernel_rfl) y

/-- What such a point leaves in accumulator 2: its pieces read back over junk. -/
def sout0_C_2 (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 x3 xs0 xs1 xs2).2.2.2.1)

/-! ## What the output block and the accumulators hold after each point -/

/-- THE ACCUMULATION. What the output's staging buffer and the three accumulators hold after the body at position `n`
    (output, accumulator 0, accumulator 1, accumulator 2): the case the position is in — `n % 16 = 0` the first column tile,
    `n % 16 = 15` the last, else a middle one —, run at the point's memrefs and input blocks; the first column tile reads nothing
    of the point before, the other two take the three accumulators as the point before left them. The output component means
    something at the last column tile only. No position is both first and last (`False.elim`). -/
def outsAt0 (c : Dev nD) : (n : ℕ) → n < cfg0.N → Vec F S1024x1 .f32 × Vec F S1024x1 .f32 × Vec F S1024x1 .f32 × Vec F S1024x1 .f32
  | 0, hn =>
      (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
       sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
       sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
       sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2,
         sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a first column tile: that case's contents. -/
theorem outsAt0_A (c : Dev nD) (t : Fin cfg0.N) (h0 : t.val % 16 = 0) (h1 : ¬t.val % 16 = 15) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
       sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
       sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a middle column tile: that case's contents, over what the point before left in the accumulators. -/
theorem outsAt0_B (c : Dev nD) (t : Fin cfg0.N) (h0 : ¬t.val % 16 = 0) (h1 : ¬t.val % 16 = 15) :
    outsAt0 m c t.val t.isLt =
      (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column tile: that case's contents, over what the point before left in the accumulators. -/
theorem outsAt0_C (c : Dev nD) (t : Fin cfg0.N) (h0 : ¬t.val % 16 = 0) (h1 : t.val % 16 = 15) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
       sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region invariant before position `n`: before the first point the class's (every scoped buffer of the kernel's own at
    anything, the generator register at some state); afterwards the three accumulators at what the point before left in them
    (`outsAt0`'s last three components) and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the accumulators at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

/-- Before a point that is not the first: the accumulators at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- The proof data of the pipeline on core `c`: the arrays as the region finds them; after the body at point `t` each input's
    buffer at its block and the output's at `outsAt0`'s first component; the invariant `PhiS`; nothing owed. The two windows on
    the normalized rows read ONE array, so each holds one half of it; the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents (the definition projected, the valuation never unfolded). -/
theorem A_eq (c : Dev nD) (w : Fin cfg0.W) : (dats m 0 c).A w = V m c (Pipeline.arrRef spec0 w) := by
  dsimp only [dats]

/-- The invariant at a point's start, restated at `t.val`. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- The shares held of the arrays: the two windows on the normalized rows one half each, the others whole. -/
theorem hq0 (c : Dev nD) : (dats m 0 c).q 0 = fullShare.left := by dsimp only [dats]
theorem hq1 (c : Dev nD) : (dats m 0 c).q 1 = fullShare.right := by dsimp only [dats]
theorem hq2 (c : Dev nD) : (dats m 0 c).q 2 = fullShare := by dsimp only [dats]
theorem hq3 (c : Dev nD) : (dats m 0 c).q 3 = fullShare := by dsimp only [dats]
theorem hq4 (c : Dev nD) : (dats m 0 c).q 4 = fullShare := by dsimp only [dats]
/-- The core owes nothing at any point. -/
theorem howed (c : Dev nD) (t : Fin (cfg0.N + 1)) : (dats m 0 c).owed t = 0 := rfl

/-- Input window 0's current staging buffer holds its block at every point, fetched there or not, for any proof data whose
    array is the region-entry contents and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data whose
    array is the region-entry contents and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data whose
    array is the region-entry contents and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data whose
    array is the region-entry contents and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. The four inputs' memrefs hold their blocks (`before0_w`); the position's residue mod 16 says which of
    the three cases the point is in, and that case's run applies: the invariant hands it the three accumulators — at what the
    point before left, or at anything at the very first point and at every other first column tile, where they are reset — and
    takes them back at this point's contents (the stored pieces cover them); the output's buffer comes back untouched where the
    point is idle for it, and at the finish's store (which covers it) at a last column tile; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_A t ((hcond0_0 t).mpr h0) (fun h => h1 ((hcond0_1 t).mp h))) (noFlush0_4_A t ((hcond0_0 t).mpr h0) (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      unfold out0_C_4 sout0_C_0 sout0_C_1 sout0_C_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        isplitl [HS2]; · iexact HS2
        iintro ⟨H0, H1, H2, H3, ⟨%e4, H4⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0 sout0_B_1 sout0_B_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.KernelIdeal.Fr

end
-- ==== Proof.Spec.lean ====
/-
  The mathematics both programs compute, as ONE function of the normalized rows and the labels.

  Write a[r,k] for the row-normalized input (8192 rows of 128 entries) and lab[r] for the labels. With
  s[r,c] = Σ_k a[r,k]·a[c,k] (the Gram matrix) and e[r,c] = exp(2·s[r,c]), each row r has
    neg[r] = Σ_c e[r,c]·[r ≠ c],   pos[r] = Σ_c e[r,c]·([lab r = lab c]·[r ≠ c]),   cnt[r] = Σ_c [lab r = lab c]·[r ≠ c],
  its loss is  −log((pos[r] / cnt[r]) / neg[r]),  and the result is the mean of the 8192 losses. All of it on the extended
  reals, every operation the exact one; the divisor of the mean is kept as the float word both programs print.
-/
import Idealize.ShloMosaic.PureOps.Ideal
import Idealize.ShloMosaic.Lib.ValueIdx

noncomputable section

open scoped BigOperators

namespace Cert.Spec

open Idealize.ShloMosaic Idealize.ShloMosaic.ValueIdx

abbrev T8192x128 : Shape := ⟨2, ![8192, 128]⟩
abbrev T8192 : Shape := ⟨1, ![8192]⟩

/-- The Gram entry of rows `r` and `c`: Σ_k a[r,k]·a[c,k]. -/
def gram (a : T8192x128.Idx → EReal) (r c : Fin 8192) : EReal := ∑ k : Fin 128, a (ix2 r k) * a (ix2 c k)

/-- The similarity: exp(2·gram). -/
def sim (a : T8192x128.Idx → EReal) (r c : Fin 8192) : EReal := Ideal.exp (gram a r c * 2)

/-- 1 off the diagonal, 0 on it. -/
def offDiag (r c : Fin 8192) : EReal := if r = c then 0 else 1

/-- 1 where the two rows carry the same label, else 0. -/
def sameLab (lab : T8192.Idx → BitVec 32) (r c : Fin 8192) : EReal := if lab (ix1 r) = lab (ix1 c) then 1 else 0

/-- The positives' mask: same label, off the diagonal. -/
def posMask (lab : T8192.Idx → BitVec 32) (r c : Fin 8192) : EReal := sameLab lab r c * offDiag r c

/-- Σ over the row of the off-diagonal similarities. -/
def negSum (a : T8192x128.Idx → EReal) (r : Fin 8192) : EReal := ∑ c : Fin 8192, sim a r c * offDiag r c

/-- Σ over the row of the positives' similarities. -/
def posSum (a : T8192x128.Idx → EReal) (lab : T8192.Idx → BitVec 32) (r : Fin 8192) : EReal :=
  ∑ c : Fin 8192, sim a r c * posMask lab r c

/-- The number of positives of the row. -/
def posCnt (lab : T8192.Idx → BitVec 32) (r : Fin 8192) : EReal := ∑ c : Fin 8192, posMask lab r c

/-- The row's loss: −log((pos / cnt) / neg). -/
def rowLoss (a : T8192x128.Idx → EReal) (lab : T8192.Idx → BitVec 32) (r : Fin 8192) : EReal :=
  - Ideal.log (Ideal.div (Ideal.div (posSum a lab r) (posCnt lab r)) (negSum a r))

/-- The result: the mean of the rows' losses (the divisor the word of 8192.0 that both programs print). -/
def G (a : T8192x128.Idx → EReal) (lab : T8192.Idx → BitVec 32) : EReal :=
  Ideal.div (∑ r : Fin 8192, rowLoss a lab r) (Ideal.ofBits .f32 0x46000000#32)

/-! ## The tiling the kernel sums in -/

/-- The global row of entry `p` of row tile `i` (tiles of 1024 rows; `i` is read modulo 8). -/
def row (i : ℕ) (p : Fin 1024) : Fin 8192 := ⟨(i % 8) * 1024 + p.val, by have := p.isLt; have := Nat.mod_lt i (show 0 < 8 by decide); omega⟩

/-- The global column of entry `q` of column tile `j` (tiles of 512 columns; `j` is read modulo 16). -/
def col (j : ℕ) (q : Fin 512) : Fin 8192 := ⟨(j % 16) * 512 + q.val, by have := q.isLt; have := Nat.mod_lt j (show 0 < 16 by decide); omega⟩

/-- A running sum in the kernel's order: from 0, tile `n` adds `0 + g n` (a lane sum started at 0) to what the tiles
    before it left. -/
def runSum (g : ℕ → EReal) : ℕ → EReal
  | 0 => 0
  | n + 1 => runSum g n + (0 + g n)

end Cert.Spec

end
-- ==== Proof.KI.Blocks.lean ====
/-
  What each input window's block holds at a grid point, in terms of the program's two arguments, on the extended reals.

  Before the region @main divides every row of its first argument by the larger of the row's Euclidean norm and a small
  constant; the conversion to the narrower float type is the identity on the extended reals, so the array both feature
  windows read is that normalized array. The label windows read the second argument through two reshapes, to a column
  [8192,1] and to a row [1,8192]. The grid is 8 row tiles by 16 column tiles, point t = 16·i + j: the row windows take
  block i (1024 rows), the column windows block j (512 rows of the features, 512 columns of the label row).
-/
import proofs.«147355_j45930380264015_1_alg».proof.Proof.KI.Kit
import proofs.«147355_j45930380264015_1_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

/-! ## The grid's coordinates -/

/-- Point t's row-tile coordinate. -/
theorem coords0 : ∀ t : Fin cfg0.N, ((grid0.coords t) 0).val = t.val / 16 :=
  (by decide +kernel : ∀ t : Fin grid0.N, ((grid0.coords t) 0).val = t.val / 16)

/-- Point t's column-tile coordinate. -/
theorem coords1 : ∀ t : Fin cfg0.N, ((grid0.coords t) 1).val = t.val % 16 :=
  (by decide +kernel : ∀ t : Fin grid0.N, ((grid0.coords t) 1).val = t.val % 16)

/-! ## The label arrays: two reshapes of the second argument -/

/-- The label column as the region finds it: the second argument reshaped to [8192,1]. -/
theorem V_v6 (c : Dev nD) :
    (V m c main_v6 : S8192x1.Idx → BitVec 32)
      = shapeCast S8192x1 (m ((c : Thread nD τ).loc main_arg1) : S8192.Idx → BitVec 32) shapeCasts_S8192_S8192x1 := by
  dsimp only [V, V0]
  simp only [hostOps0, hostOps0_1, List.flatten_cons, List.flatten_nil, List.append_nil, List.cons_append, List.nil_append]
  after_results
  rfl

/-- The label row as the region finds it: the second argument reshaped to [1,8192]. -/
theorem V_v7 (c : Dev nD) :
    (V m c main_v7 : S1x8192.Idx → BitVec 32)
      = shapeCast S1x8192 (m ((c : Thread nD τ).loc main_arg1) : S8192.Idx → BitVec 32) shapeCasts_S8192_S1x8192 := by
  dsimp only [V, V0]
  simp only [hostOps0, hostOps0_1, List.flatten_cons, List.flatten_nil, List.append_nil, List.cons_append, List.nil_append]
  after_results
  rfl

/-- Entry (r, 0) of the label column is label r. -/
theorem V_v6_apply (c : Dev nD) (r : Fin 8192) :
    V m c main_v6 (ix2 r 0) = m ((c : Thread nD τ).loc main_arg1) (ix1 r) := by
  rw [V_v6]
  exact shapeCast_apply _ _ _ _ (by
    show (S8192.rowMajor (ix1 r)).val = (S8192x1.rowMajor (ix2 r 0)).val
    rw [Shape.rowMajor_val_one, Shape.rowMajor_val_two]
    show r.val = r.val * 1 + 0
    omega)

/-- Entry (0, r) of the label row is label r. -/
theorem V_v7_apply (c : Dev nD) (r : Fin 8192) :
    V m c main_v7 (ix2 0 r) = m ((c : Thread nD τ).loc main_arg1) (ix1 r) := by
  rw [V_v7]
  exact shapeCast_apply _ _ _ _ (by
    show (S8192.rowMajor (ix1 r)).val = (S1x8192.rowMajor (ix2 0 r)).val
    rw [Shape.rowMajor_val_one, Shape.rowMajor_val_two]
    show r.val = 0 * 8192 + r.val
    omega)

/-! ## The normalized rows -/

/-- The program's normalized rows as a function of its first argument: every entry divided by the larger of its row's
    Euclidean norm — the square root of the row's sum of squares, summed from 0 — and the constant 0x2B8CBCCC. -/
def normK (x : FVec Ideal S8192x128 .f32) : FVec Ideal S8192x128 .f32 :=
  Host.divf (F := Ideal) x
    (broadcastInDim S8192x128 ![0, 1] bcast_S8192x1_S8192x128_0_1
      (maximumf
        (Host.sqrt (F := Ideal)
          (broadcastInDim S8192x1 ![0] bcast_S8192_S8192x1_0
            (Host.reduceAdd (F := Ideal) (mulf x x) (constant (F := Ideal) S_ .f32 0x00000000#32) reducesTo_S8192x128_S8192_d1 h_S_)))
        (broadcastInDim S8192x1 ![] bcast_S_S8192x1 (constant (F := Ideal) S_ .f32 0x2B8CBCCC#32))))

/-- The array both feature windows read is the normalized first argument: the conversion to the narrower float type
    is the identity on the extended reals. -/
theorem V_v5 (c : Dev nD) :
    (V m c main_v5 : S8192x128.Idx → EReal) = normK (m ((c : Thread nD τ).loc main_arg0)) := by
  dsimp only [V, V0]
  simp only [hostOps0, hostOps0_1, List.flatten_cons, List.flatten_nil, List.append_nil, List.cons_append, List.nil_append]
  after_results
  rfl

/-! ## The index maps over the grid -/

/-- The windows' block indices at point t: the row windows take block t / 16 on the row axis, the column windows
    block t % 16 (the label row on its second axis), and 0 on the other axis. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

theorem point_lt (t : Fin cfg0.N) : t.val < 128 := lt_of_lt_of_eq t.isLt N_0

/-! ## Each block read off its array -/

/-- Window 0's block at point t is rows 1024·(t / 16) … of the feature array. -/
theorem iblk0_read (c : Dev nD) (t : Fin cfg0.N) (y : S1024x128.Idx) (i : S8192x128.Idx)
    (h0 : (i 0).val = t.val / 16 * 1024 + (y 0).val) (h1 : (i 1).val = (y 1).val) :
    (iblk m c 0 t : S1024x128.Idx → EReal) y = (V m c main_v5 : S8192x128.Idx → EReal) i := by
  obtain ⟨e0, e1, -⟩ := idx_facts t
  unfold iblk
  rw [View.read_apply]
  show V m c main_v5 (((cfg0.win 0).blk t).view.emb y) = V m c main_v5 i
  refine congrArg _ ?_
  funext a
  apply Fin.ext
  match a with
  | ⟨0, _⟩ => show win0_0.index t (0 : Fin 2) * 1024 + 1 * (y 0).val = (i 0).val; rw [e0, h0]; omega
  | ⟨1, _⟩ => show win0_0.index t (1 : Fin 2) * 128 + 1 * (y 1).val = (i 1).val; rw [e1, h1]; omega

/-- Window 1's block at point t is rows 512·(t % 16) … of the feature array. -/
theorem iblk1_read (c : Dev nD) (t : Fin cfg0.N) (y : S512x128.Idx) (i : S8192x128.Idx)
    (h0 : (i 0).val = t.val % 16 * 512 + (y 0).val) (h1 : (i 1).val = (y 1).val) :
    (iblk m c 1 t : S512x128.Idx → EReal) y = (V m c main_v5 : S8192x128.Idx → EReal) i := by
  obtain ⟨-, -, e0, e1, -⟩ := idx_facts t
  unfold iblk
  rw [View.read_apply]
  show V m c main_v5 (((cfg0.win 1).blk t).view.emb y) = V m c main_v5 i
  refine congrArg _ ?_
  funext a
  apply Fin.ext
  match a with
  | ⟨0, _⟩ => show win0_1.index t (0 : Fin 2) * 512 + 1 * (y 0).val = (i 0).val; rw [e0, h0]; omega
  | ⟨1, _⟩ => show win0_1.index t (1 : Fin 2) * 128 + 1 * (y 1).val = (i 1).val; rw [e1, h1]; omega

/-- Window 2's block at point t is rows 1024·(t / 16) … of the label column. -/
theorem iblk2_read (c : Dev nD) (t : Fin cfg0.N) (y : S1024x1.Idx) (i : S8192x1.Idx)
    (h0 : (i 0).val = t.val / 16 * 1024 + (y 0).val) (h1 : (i 1).val = (y 1).val) :
    (iblk m c 2 t : S1024x1.Idx → BitVec 32) y = (V m c main_v6 : S8192x1.Idx → BitVec 32) i := by
  obtain ⟨-, -, -, -, e0, e1, -⟩ := idx_facts t
  unfold iblk
  rw [View.read_apply]
  show V m c main_v6 (((cfg0.win 2).blk t).view.emb y) = V m c main_v6 i
  refine congrArg _ ?_
  funext a
  apply Fin.ext
  match a with
  | ⟨0, _⟩ => show win0_2.index t (0 : Fin 2) * 1024 + 1 * (y 0).val = (i 0).val; rw [e0, h0]; omega
  | ⟨1, _⟩ => show win0_2.index t (1 : Fin 2) * 1 + 1 * (y 1).val = (i 1).val; rw [e1, h1]; omega

/-- Window 3's block at point t is columns 512·(t % 16) … of the label row. -/
theorem iblk3_read (c : Dev nD) (t : Fin cfg0.N) (y : S1x512.Idx) (i : S1x8192.Idx)
    (h0 : (i 0).val = (y 0).val) (h1 : (i 1).val = t.val % 16 * 512 + (y 1).val) :
    (iblk m c 3 t : S1x512.Idx → BitVec 32) y = (V m c main_v7 : S1x8192.Idx → BitVec 32) i := by
  obtain ⟨-, -, -, -, -, -, e0, e1⟩ := idx_facts t
  unfold iblk
  rw [View.read_apply]
  show V m c main_v7 (((cfg0.win 3).blk t).view.emb y) = V m c main_v7 i
  refine congrArg _ ?_
  funext a
  apply Fin.ext
  match a with
  | ⟨0, _⟩ => show win0_3.index t (0 : Fin 2) * 1 + 1 * (y 0).val = (i 0).val; rw [e0, h0]; omega
  | ⟨1, _⟩ => show win0_3.index t (1 : Fin 2) * 512 + 1 * (y 1).val = (i 1).val; rw [e1, h1]; omega

/-! ## The blocks in terms of the program's arguments -/

/-- Entry (p, k) of the row window's feature block: the normalized first argument at global row (t / 16)·1024 + p. -/
theorem iblk0_apply (c : Dev nD) (t : Fin cfg0.N) (p : Fin 1024) (k : Fin 128) :
    (iblk m c 0 t : S1024x128.Idx → EReal) (ix2 p k)
      = normK (m ((c : Thread nD τ).loc main_arg0)) (ix2 (Cert.Spec.row (t.val / 16) p) k) := by
  have ht := point_lt t
  rw [← V_v5]
  exact iblk0_read m c t (ix2 p k) (ix2 (Cert.Spec.row (t.val / 16) p) k)
    (by show t.val / 16 % 8 * 1024 + p.val = t.val / 16 * 1024 + p.val; omega) rfl

/-- Entry (q, k) of the column window's feature block: the normalized first argument at global row (t % 16)·512 + q. -/
theorem iblk1_apply (c : Dev nD) (t : Fin cfg0.N) (q : Fin 512) (k : Fin 128) :
    (iblk m c 1 t : S512x128.Idx → EReal) (ix2 q k)
      = normK (m ((c : Thread nD τ).loc main_arg0)) (ix2 (Cert.Spec.col (t.val % 16) q) k) := by
  rw [← V_v5]
  exact iblk1_read m c t (ix2 q k) (ix2 (Cert.Spec.col (t.val % 16) q) k)
    (by show t.val % 16 % 16 * 512 + q.val = t.val % 16 * 512 + q.val; omega) rfl

/-- Entry (p, 0) of the label column's block: the label of global row (t / 16)·1024 + p. -/
theorem iblk2_apply (c : Dev nD) (t : Fin cfg0.N) (p : Fin 1024) :
    (iblk m c 2 t : S1024x1.Idx → BitVec 32) (ix2 p 0)
      = m ((c : Thread nD τ).loc main_arg1) (ix1 (Cert.Spec.row (t.val / 16) p)) := by
  have ht := point_lt t
  refine (iblk2_read m c t (ix2 p 0) (ix2 (Cert.Spec.row (t.val / 16) p) 0)
    (by show t.val / 16 % 8 * 1024 + p.val = t.val / 16 * 1024 + p.val; omega) rfl).trans ?_
  exact V_v6_apply m c _

/-- Entry (0, q) of the label row's block: the label of global column (t % 16)·512 + q. -/
theorem iblk3_apply (c : Dev nD) (t : Fin cfg0.N) (q : Fin 512) :
    (iblk m c 3 t : S1x512.Idx → BitVec 32) (ix2 0 q)
      = m ((c : Thread nD τ).loc main_arg1) (ix1 (Cert.Spec.col (t.val % 16) q)) := by
  refine (iblk3_read m c t (ix2 0 q) (ix2 0 (Cert.Spec.col (t.val % 16) q)) rfl
    (by show t.val % 16 % 16 * 512 + q.val = t.val % 16 * 512 + q.val; omega)).trans ?_
  exact V_v7_apply m c _

end Cert.KernelIdeal.Fr

end
-- ==== Proof.SpecLaws.lean ====
/-
  The small laws that join the two programs' spellings of the computation to the specification's: the float words
  2.0, 0.5 and 1.0 as extended reals; division by 0.5 and multiplication by 2.0 as the same doubling; 0 − x as −x;
  1 − [b] as [¬b]; a running sum over tiles, each tile's lane sum started at 0, as the plain sum; the sum over the
  16 column tiles of 512 (and the 8 row tiles of 1024) as the sum over all 8192 indices; and a one-bit word read as
  a float, signed after a zero extension or unsigned directly, as the indicator of the bit.
-/
import proofs.«147355_j45930380264015_1_alg».proof.Proof.Spec
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

open scoped BigOperators

namespace Cert.Spec

open Idealize.ShloMosaic Idealize.ShloMosaic.ValueIdx

/-! ## The float words -/

/-- The word of 2.0: sign 0, exponent 128, fraction 0, that is 2^23 · 2^(128 − 127 − 23) = 2. -/
theorem ofBits_two : Ideal.ofBits .f32 0x40000000#32 = (2 : EReal) := by
  have h : Ideal.ofBits .f32 0x40000000#32 = ((2 : ℝ) : EReal) := by
    simp [Ideal.ofBits, Ideal.ieee, -EReal.coe_mul]; norm_num
  rw [h]; rfl

/-- The word of 0.5: sign 0, exponent 126, fraction 0, that is 2^23 · 2^(126 − 127 − 23) = 1/2. -/
theorem ofBits_half : Ideal.ofBits .f32 0x3F000000#32 = (((1 / 2 : ℝ)) : EReal) := by
  simp [Ideal.ofBits, Ideal.ieee, -EReal.coe_mul]; norm_num

/-- The word of 1.0: sign 0, exponent 127, fraction 0, that is 2^23 · 2^(127 − 127 − 23) = 1. -/
theorem ofBits_one : Ideal.ofBits .f32 0x3F800000#32 = (1 : EReal) := by
  simp [Ideal.ofBits, Ideal.ieee, -EReal.coe_mul]; norm_num

/-- Dividing by 0.5 doubles: 1/2 is a nonzero real, so the quotient is the product with its reciprocal 2. -/
theorem div_half (x : EReal) : Ideal.div x (Ideal.ofBits .f32 0x3F000000#32) = x * 2 := by
  rw [ofBits_half, Ideal.div_coe (by norm_num : (1 / 2 : ℝ) ≠ 0)]
  have h : ((1 / (1 / 2 : ℝ) : ℝ) : EReal) = (2 : EReal) := by
    have : (1 / (1 / 2 : ℝ) : ℝ) = 2 := by norm_num
    rw [this]; rfl
  rw [h]

/-- Multiplying by the word of 2.0 doubles. -/
theorem mul_two (x : EReal) : x * Ideal.ofBits .f32 0x40000000#32 = x * 2 := by
  rw [ofBits_two]

/-- 0 − x = −x on the extended reals. -/
theorem zero_sub_eq_neg (x : EReal) : (0 : EReal) - x = -x := by
  rw [sub_eq_add_neg, zero_add]

/-- 1 − [b] = [¬b]. -/
theorem one_sub_ite (b : Prop) [Decidable b] : (1 : EReal) - (if b then (1 : EReal) else 0) = if b then 0 else 1 := by
  by_cases h : b
  · rw [if_pos h, if_pos h]
    have : ((1 : ℝ) : EReal) - ((1 : ℝ) : EReal) = ((0 : ℝ) : EReal) := by rw [← EReal.coe_sub, sub_self]
    exact this
  · rw [if_neg h, if_neg h, sub_zero]

/-! ## Running sums and the tiling -/

/-- The running sum in the kernel's order is the plain sum over the tiles: each step adds `0 + g n = g n`. -/
theorem runSum_eq (g : ℕ → EReal) (n : ℕ) : runSum g n = ∑ j ∈ Finset.range n, g j := by
  induction n with
  | zero => simp [runSum]
  | succ n ih => rw [runSum, ih, zero_add, Finset.sum_range_succ]

/-- The 16 column tiles of 512 cover the 8192 columns once each: (j, q) ↦ 512·j + q is a bijection. -/
theorem sum_cols (f : Fin 8192 → EReal) : ∑ j ∈ Finset.range 16, ∑ q : Fin 512, f (col j q) = ∑ c : Fin 8192, f c := by
  rw [Finset.sum_range (fun j => ∑ q : Fin 512, f (col j q))]
  rw [← Fintype.sum_prod_type' (fun (j : Fin 16) (q : Fin 512) => f (col j q))]
  refine Fintype.sum_equiv (finProdFinEquiv (m := 16) (n := 512)) _ _ (fun p => ?_)
  congr 1
  apply Fin.ext
  have h1 := p.1.isLt
  simp only [col, finProdFinEquiv_apply_val]
  rw [Nat.mod_eq_of_lt h1]
  omega

/-- The running sum over the 16 column tiles is the sum over the whole row. -/
theorem runSum_cols (f : Fin 8192 → EReal) : runSum (fun j => ∑ q : Fin 512, f (col j q)) 16 = ∑ c : Fin 8192, f c := by
  rw [runSum_eq, sum_cols]

/-- The 8 row tiles of 1024 cover the 8192 rows once each: (i, p) ↦ 1024·i + p is a bijection. -/
theorem sum_rows (f : Fin 8192 → EReal) : ∑ i ∈ Finset.range 8, ∑ p : Fin 1024, f (row i p) = ∑ r : Fin 8192, f r := by
  rw [Finset.sum_range (fun i => ∑ p : Fin 1024, f (row i p))]
  rw [← Fintype.sum_prod_type' (fun (i : Fin 8) (p : Fin 1024) => f (row i p))]
  refine Fintype.sum_equiv (finProdFinEquiv (m := 8) (n := 1024)) _ _ (fun x => ?_)
  congr 1
  apply Fin.ext
  have h1 := x.1.isLt
  simp only [row, finProdFinEquiv_apply_val]
  rw [Nat.mod_eq_of_lt h1]
  omega

/-! ## A one-bit word read as a float -/

/-- A one-bit word is 0 or 1. -/
theorem bit_cases (b : BitVec 1) : b = 0#1 ∨ b = 1#1 := by
  revert b; decide

/-- The kernel's way: the bit is zero-extended to 32 bits (0 or 1 as a word), and that word read as a signed integer is
    0 or 1, so the float is the indicator of the bit. -/
theorem sitofp_extui_apply {S : Shape} (v : IVec S 1) (h : 1 < 32) (i : S.Idx) :
    sitofp (F := Ideal) .f32 (extui 32 v h) i = if v i = 1#1 then (1 : EReal) else 0 := by
  show (((((v i).setWidth 32).toInt : ℤ) : ℝ) : EReal) = if v i = 1#1 then (1 : EReal) else 0
  rcases bit_cases (v i) with hb | hb
  · rw [hb]; simp
  · rw [hb]; simp

/-- The reference's way: the bit read as an unsigned integer is 0 or 1, so the float is the indicator of the bit. -/
theorem uitofp_bit_apply {S : Shape} (v : IVec S 1) (i : S.Idx) :
    uitofp (F := Ideal) .f32 v i = if v i = 1#1 then (1 : EReal) else 0 := by
  show ((((v i).toNat : ℕ) : ℝ) : EReal) = if v i = 1#1 then (1 : EReal) else 0
  rcases bit_cases (v i) with hb | hb
  · rw [hb]; simp
  · rw [hb]; simp

end Cert.Spec

end
-- ==== Proof.KI.Pay.lean ====
/-
  The kernel body's arithmetic read at an index, on the extended reals (every operation the exact one, a format change
  the identity).

  The body works on one tile of 1024 rows by 512 columns. At row p and column q of the tile:
    * the similarity is exp(2 · Σ_k x0[p,k] · x1[q,k]): the second operand transposed, the product accumulated into a
      zero block (0 + Σ = Σ), the result times the word of 2.0, and the exponential;
    * the off-diagonal mask compares the global row 1024·i₀ + p with the global column 512·i₁ + q as 32-bit words (both
      are below 8192, so nothing wraps) and is 1 − [equal];
    * the positives' mask is [labels equal] times the off-diagonal mask;
    * each running row sum adds to what was there the lane sum, started at 0, of its 512 entries;
    * the row's loss is 0 − log((a / b) / c) = −log((a / b) / c);
    * the three accumulators are started at 0.
-/
import proofs.«147355_j45930380264015_1_alg».proof.Proof.Gen.KernelIdeal.Skeleton
import proofs.«147355_j45930380264015_1_alg».proof.Proof.Spec
import proofs.«147355_j45930380264015_1_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Two layout readings the tile's row sums need -/

/-- A vector of length `a` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the lanes of a 1024 × 512 tile, at row `p`: the sum of the row's 512 entries. -/
theorem laneSum_apply (v : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 512, v (ix2 p q) := by
  refine (Ideal.multiReduction_add_single v 0x00000000#32 h hφ hacc (ix1 p)).trans ?_
  refine Finset.sum_congr rfl fun q _ => congrArg v ?_
  funext c
  match c with
  | ⟨0, _⟩ => exact Fin.ext rfl
  | ⟨1, _⟩ => exact Fin.ext rfl

/-- A running row sum's step: what was there plus the lane sum, started at 0, of the row's 512 entries. -/
theorem rowStep_apply (s : Vec Ideal S1024x1 .f32) (v : FVec Ideal S1024x512 .f32)
    (h1 : S1024x512.Reduces [1] S1024) (hφ : FKind.Formats .f32)
    (hacc : (0x00000000#32 : BitVec 32) = FKind.add.neutral .f32 hφ)
    (h2 : S1024.ShapeCasts S1024x1) (h3 : S1024x1.ShapeCasts S1024x1) (p : Fin 1024) (u : Fin 1) :
    shapeCast S1024x1 (addf s (shapeCast S1024x1
        (multiReduction (F := Ideal) .add [1] S1024 v 0x00000000#32 h1 hφ hacc) h2)) h3 (ix2 p u)
      = s (ix2 p u) + (0 + ∑ q : Fin 512, v (ix2 p q)) := by
  rw [shapeCast_self, addf_apply, zero_add]
  refine congrArg (s (ix2 p u) + ·) ?_
  refine (shapeCast_a_a1_apply _ _ p u).trans ?_
  exact laneSum_apply v _ _ _ p

/-! ## The stores' values -/

/-- The off-diagonal row sum's step. -/
theorem pay1_apply (s : Vec Ideal S1024x1 .f32) (v : FVec Ideal S1024x512 .f32) (p : Fin 1024) :
    k0_pay1 (F := Ideal) s v (ix2 p 0) = s (ix2 p 0) + (0 + ∑ q : Fin 512, v (ix2 p q)) := by
  unfold k0_pay1
  exact rowStep_apply s v _ _ _ _ _ p 0

/-- The positives' row sum's step: the entries are the similarities times the positives' mask. -/
theorem pay2_apply (v11 v36 : FVec Ideal S1024x512 .f32) (s : Vec Ideal S1024x1 .f32) (p : Fin 1024) :
    k0_pay2 (F := Ideal) v11 v36 s (ix2 p 0) = s (ix2 p 0) + (0 + ∑ q : Fin 512, v11 (ix2 p q) * v36 (ix2 p q)) := by
  unfold k0_pay2
  exact rowStep_apply s (mulf v11 v36) _ _ _ _ _ p 0

/-- The positives' count's step. -/
theorem pay3_apply (v36 : FVec Ideal S1024x512 .f32) (s : Vec Ideal S1024x1 .f32) (p : Fin 1024) :
    k0_pay3 (F := Ideal) v36 s (ix2 p 0) = s (ix2 p 0) + (0 + ∑ q : Fin 512, v36 (ix2 p q)) := by
  unfold k0_pay3
  exact rowStep_apply s v36 _ _ _ _ _ p 0

/-- The row's loss: 0 − log((a / b) / c). -/
theorem pay4_apply (a b c : Vec Ideal S1024x1 .f32) (p : Fin 1024) :
    k0_pay4 (F := Ideal) a b c (ix2 p 0)
      = - Ideal.log (Ideal.div (Ideal.div (a (ix2 p 0)) (b (ix2 p 0))) (c (ix2 p 0))) := by
  unfold k0_pay4
  show Ideal.ofBits .f32 0x00000000#32 - Ideal.log (Ideal.div (Ideal.div (a (ix2 p 0)) (b (ix2 p 0))) (c (ix2 p 0))) = _
  rw [Ideal.ofBits_zero_f32, Cert.Spec.zero_sub_eq_neg]

/-- The three accumulators start at 0. -/
theorem pay5_apply (p : Fin 1024) : k0_pay5 (F := Ideal) (ix2 p 0) = 0 := by
  unfold k0_pay5
  rw [shapeCast_self]
  exact Ideal.ofBits_zero_f32

theorem pay6_apply (p : Fin 1024) : k0_pay6 (F := Ideal) (ix2 p 0) = 0 := by
  unfold k0_pay6
  rw [shapeCast_self]
  exact Ideal.ofBits_zero_f32

theorem pay7_apply (p : Fin 1024) : k0_pay7 (F := Ideal) (ix2 p 0) = 0 := by
  unfold k0_pay7
  rw [shapeCast_self]
  exact Ideal.ofBits_zero_f32

/-! ## The similarity -/

/-- The product's left operand index at output `i` and contraction index `c`: its row is `i`'s row … -/
theorem lhs_dot_0 (i : S1024x512.Idx) (c : dot_S1024x128_S128x512_S1024x512_1_0_0_1_n_n.contr.Idx) :
    (dot_S1024x128_S128x512_S1024x512_1_0_0_1_n_n.lhsIdx i c 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
/-- … and its column the contraction coordinate. -/
theorem lhs_dot_1 (i : S1024x512.Idx) (c : dot_S1024x128_S128x512_S1024x512_1_0_0_1_n_n.contr.Idx) :
    (dot_S1024x128_S128x512_S1024x512_1_0_0_1_n_n.lhsIdx i c 1).val = (c ⟨0, by decide⟩).val :=
  dot_S1024x128_S128x512_S1024x512_1_0_0_1_n_n.lhsIdx_val_of_single rfl i c
/-- The right operand's row is the contraction coordinate … -/
theorem rhs_dot_0 (i : S1024x512.Idx) (c : dot_S1024x128_S128x512_S1024x512_1_0_0_1_n_n.contr.Idx) :
    (dot_S1024x128_S128x512_S1024x512_1_0_0_1_n_n.rhsIdx i c 0).val = (c ⟨0, by decide⟩).val :=
  dot_S1024x128_S128x512_S1024x512_1_0_0_1_n_n.rhsIdx_val_of_single rfl i c
/-- … and its column `i`'s column. -/
theorem rhs_dot_1 (i : S1024x512.Idx) (c : dot_S1024x128_S128x512_S1024x512_1_0_0_1_n_n.contr.Idx) :
    (dot_S1024x128_S128x512_S1024x512_1_0_0_1_n_n.rhsIdx i c 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

/-- The matrix product accumulated into a zero block, at `(p, q)`: Σ_k y0[p,k] · y1[k,q]. -/
theorem matmul_zero_apply (y0 : FVec Ideal S1024x128 .bf16) (y1 : FVec Ideal S128x512 .bf16) (p : Fin 1024) (q : Fin 512) :
    matmul (F := Ideal) dot_S1024x128_S128x512_S1024x512_1_0_0_1_n_n none y0 y1 (constant (F := Ideal) S1024x512 .f32 0x00000000#32) (ix2 p q)
      = ∑ k : Fin 128, y0 (ix2 p k) * y1 (ix2 k q) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 p q) ((contrEquiv1 dot_S1024x128_S128x512_S1024x512_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S1024x128_S128x512_S1024x512_1_0_0_1_n_n.rhsIdx (ix2 p q) ((contrEquiv1 dot_S1024x128_S128x512_S1024x512_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The similarity of row `p` and column `q` of the tile: exp(2 · Σ_k x0[p,k] · x1[q,k]). -/
theorem sim_apply (x0 : FVec Ideal S1024x128 .bf16) (x1 : FVec Ideal S512x128 .bf16)
    (h1 : S1024x128.ShapeCasts S1024x128) (h2 : S512x128.ShapeCasts S512x128) (h3 : S512x128.Transposes [1, 0] S128x512)
    (p : Fin 1024) (q : Fin 512) :
    exp (mulf (matmul (F := Ideal) dot_S1024x128_S128x512_S1024x512_1_0_0_1_n_n none (shapeCast S1024x128 x0 h1)
          (transpose S128x512 [1, 0] (shapeCast S512x128 x1 h2) h3) (constant (F := Ideal) S1024x512 .f32 0x00000000#32))
        (broadcast S1024x512 (Scalar.ofBits (F := Ideal) .f32 0x40000000#32))) (ix2 p q)
      = Ideal.exp ((∑ k : Fin 128, x0 (ix2 p k) * x1 (ix2 q k)) * 2) := by
  rw [shapeCast_self, shapeCast_self]
  show Ideal.exp (matmul (F := Ideal) dot_S1024x128_S128x512_S1024x512_1_0_0_1_n_n none x0 (transpose S128x512 [1, 0] x1 h3)
      (constant (F := Ideal) S1024x512 .f32 0x00000000#32) (ix2 p q) * Ideal.ofBits .f32 0x40000000#32) = _
  rw [matmul_zero_apply, Cert.Spec.mul_two]
  refine congrArg (fun t => Ideal.exp (t * 2)) (Finset.sum_congr rfl fun k _ => ?_)
  rw [transpose_ix2_apply]

theorem pay8_apply (x0 : Vec Ideal S1024x128 .bf16) (x1 : Vec Ideal S512x128 .bf16) (p : Fin 1024) (q : Fin 512) :
    k0_pay8 (F := Ideal) x0 x1 (ix2 p q) = Ideal.exp ((∑ k : Fin 128, x0 (ix2 p k) * x1 (ix2 q k)) * 2) := by
  unfold k0_pay8
  exact sim_apply x0 x1 _ _ _ p q

/-! ## The masks -/

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An equality test of two 32-bit words gives the bit 1 exactly when the words are equal. -/
theorem cmpi_eq_one_iff (x y : BitVec 32) : IntOp.cmpi .eq x y = 1#1 ↔ x = y := by
  show BitVec.ofBool (x == y) = 1#1 ↔ x = y
  by_cases h : x = y
  · subst h; simp
  · have hb : (x == y) = false := beq_eq_false_iff_ne.mpr h
    rw [hb]
    exact ⟨fun h' => absurd h' (by decide), fun h' => absurd h' h⟩

/-- A tile coordinate plus the tile's offset, as 32-bit words: the word of `t · n + c`. -/
theorem word_add_mul (c t n : ℕ) :
    IntOp.addi (BitVec.ofNat 32 c) (Scalar.muli (BitVec.ofNat 32 t) (BitVec.ofNat 32 n)) = BitVec.ofNat 32 (t * n + c) := by
  show BitVec.ofNat 32 c + BitVec.ofNat 32 t * BitVec.ofNat 32 n = BitVec.ofNat 32 (t * n + c)
  rw [← BitVec.ofNat_mul, ← BitVec.ofNat_add, Nat.add_comm]

/-- Two naturals below 2^32 have the same 32-bit word only if they are equal. -/
theorem ofNat32_inj {m n : ℕ} (hm : m < 4294967296) (hn : n < 4294967296) :
    BitVec.ofNat 32 m = BitVec.ofNat 32 n ↔ m = n := by
  constructor
  · intro h
    have := congrArg BitVec.toNat h
    simp only [BitVec.toNat_ofNat] at this
    omega
  · rintro rfl; rfl

/-- The off-diagonal mask of the tile at grid point `(t0, t1)`, at `(p, q)`: 0 where the global row 1024·t0 + p is the
    global column 512·t1 + q, else 1. The two are compared as 32-bit words; both are below 8192, so nothing wraps. -/
theorem offDiag_apply (t0 t1 : ℕ) (ht0 : t0 < 8) (ht1 : t1 < 16)
    (hi0 : S1024x1.Iotas .tc 32 [0]) (hi1 : S1x512.Iotas .tc 32 [1])
    (hb0 : S1024x1.Broadcasts S1024x512) (hb1 : S1x512.Broadcasts S1024x512) (hlt : 1 < 32)
    (p : Fin 1024) (q : Fin 512) :
    subf (broadcast S1024x512 (Scalar.ofBits (F := Ideal) .f32 0x3F800000#32))
        (sitofp (F := Ideal) .f32 (extui 32 (cmpi .eq
          (broadcastTo S1024x512 (addi (iota .tc S1024x1 32 [0] hi0)
            (broadcast S1024x1 (Scalar.muli (BitVec.ofNat 32 t0) 1024#32))) hb0)
          (broadcastTo S1024x512 (addi (iota .tc S1x512 32 [1] hi1)
            (broadcast S1x512 (Scalar.muli (BitVec.ofNat 32 t1) 512#32))) hb1)) hlt)) (ix2 p q)
      = if t0 * 1024 + p.val = t1 * 512 + q.val then (0 : EReal) else 1 := by
  rw [subf_apply, Cert.Spec.sitofp_extui_apply]
  show Ideal.ofBits .f32 0x3F800000#32 - (if IntOp.cmpi .eq
      (broadcastTo S1024x512 (addi (iota .tc S1024x1 32 [0] hi0)
            (broadcast S1024x1 (Scalar.muli (BitVec.ofNat 32 t0) 1024#32))) hb0 (ix2 p q))
      (broadcastTo S1024x512 (addi (iota .tc S1x512 32 [1] hi1)
            (broadcast S1x512 (Scalar.muli (BitVec.ofNat 32 t1) 512#32))) hb1 (ix2 p q)) = 1#1 then (1 : EReal) else 0) = _
  rw [broadcastTo_a1_ab_apply, broadcastTo_1b_ab_apply]
  show Ideal.ofBits .f32 0x3F800000#32 - (if IntOp.cmpi .eq
      (IntOp.addi (iota .tc S1024x1 32 [0] hi0 (ix2 p (0 : Fin 1))) (Scalar.muli (BitVec.ofNat 32 t0) (BitVec.ofNat 32 1024)))
      (IntOp.addi (iota .tc S1x512 32 [1] hi1 (ix2 (0 : Fin 1) q)) (Scalar.muli (BitVec.ofNat 32 t1) (BitVec.ofNat 32 512))) = 1#1
        then (1 : EReal) else 0) = _
  rw [iota_single_apply, iota_single_apply]
  show Ideal.ofBits .f32 0x3F800000#32 - (if IntOp.cmpi .eq
      (IntOp.addi (BitVec.ofNat 32 p.val) (Scalar.muli (BitVec.ofNat 32 t0) (BitVec.ofNat 32 1024)))
      (IntOp.addi (BitVec.ofNat 32 q.val) (Scalar.muli (BitVec.ofNat 32 t1) (BitVec.ofNat 32 512))) = 1#1
        then (1 : EReal) else 0) = _
  rw [word_add_mul, word_add_mul, Cert.Spec.ofBits_one, Cert.Spec.one_sub_ite]
  have hp := p.isLt
  have hq := q.isLt
  have hiff : IntOp.cmpi .eq (BitVec.ofNat 32 (t0 * 1024 + p.val)) (BitVec.ofNat 32 (t1 * 512 + q.val)) = 1#1
      ↔ t0 * 1024 + p.val = t1 * 512 + q.val :=
    (cmpi_eq_one_iff _ _).trans (ofNat32_inj (by omega) (by omega))
  by_cases h : t0 * 1024 + p.val = t1 * 512 + q.val
  · rw [if_pos (hiff.2 h), if_pos h]
  · rw [if_neg (fun h' => h (hiff.1 h')), if_neg h]

theorem pay9_apply (i : grid0.Coords) (p : Fin 1024) (q : Fin 512) :
    k0_pay9 (F := Ideal) i (ix2 p q)
      = if (i 0).val * 1024 + p.val = (i 1).val * 512 + q.val then (0 : EReal) else 1 := by
  unfold k0_pay9
  exact offDiag_apply (i 0).val (i 1).val (i 0).isLt (i 1).isLt _ _ _ _ _ p q

/-- The positives' mask: 1 where the row's label is the column's, times the off-diagonal mask. -/
theorem posMask_apply (m : FVec Ideal S1024x512 .f32) (x2 : IVec S1024x1 32) (x3 : IVec S1x512 32)
    (h1 : S1024x1.ShapeCasts S1024x1) (h2 : S1x512.ShapeCasts S1x512)
    (hb0 : S1024x1.Broadcasts S1024x512) (hb1 : S1x512.Broadcasts S1024x512) (hlt : 1 < 32)
    (p : Fin 1024) (q : Fin 512) :
    mulf (sitofp (F := Ideal) .f32 (extui 32 (cmpi .eq
          (broadcastTo S1024x512 (shapeCast S1024x1 x2 h1) hb0)
          (broadcastTo S1024x512 (shapeCast S1x512 x3 h2) hb1)) hlt)) m (ix2 p q)
      = (if x2 (ix2 p 0) = x3 (ix2 0 q) then (1 : EReal) else 0) * m (ix2 p q) := by
  rw [shapeCast_self, shapeCast_self, mulf_apply, Cert.Spec.sitofp_extui_apply]
  refine congrArg (· * m (ix2 p q)) ?_
  show (if IntOp.cmpi .eq (broadcastTo S1024x512 x2 hb0 (ix2 p q)) (broadcastTo S1024x512 x3 hb1 (ix2 p q)) = 1#1
      then (1 : EReal) else 0) = _
  rw [broadcastTo_a1_ab_apply, broadcastTo_1b_ab_apply]
  by_cases h : x2 (ix2 p 0) = x3 (ix2 0 q)
  · rw [if_pos ((cmpi_eq_one_iff _ _).2 h), if_pos h]
  · rw [if_neg (fun h' => h ((cmpi_eq_one_iff _ _).1 h')), if_neg h]

theorem pay10_apply (i : grid0.Coords) (x2 : Vec Ideal S1024x1 .i32) (x3 : Vec Ideal S1x512 .i32) (p : Fin 1024) (q : Fin 512) :
    k0_pay10 (F := Ideal) i x2 x3 (ix2 p q)
      = (if x2 (ix2 p 0) = x3 (ix2 0 q) then (1 : EReal) else 0) * k0_pay9 (F := Ideal) i (ix2 p q) := by
  unfold k0_pay10
  exact posMask_apply (k0_pay9 (F := Ideal) i) x2 x3 _ _ _ _ _ p q

/-- The similarities off the diagonal. -/
theorem pay11_apply (i : grid0.Coords) (x0 : Vec Ideal S1024x128 .bf16) (x1 : Vec Ideal S512x128 .bf16) (p : Fin 1024) (q : Fin 512) :
    k0_pay11 (F := Ideal) i x0 x1 (ix2 p q)
      = k0_pay8 (F := Ideal) x0 x1 (ix2 p q) * k0_pay9 (F := Ideal) i (ix2 p q) := by
  unfold k0_pay11
  rfl

end Cert.KernelIdeal.Pay

end
-- ==== Proof.KI.Acc.lean ====
/-
  What the three accumulators and the output block hold, at the ideal instance, in the specification's terms.

  At point t = 16·i + j the body has added column tiles 0 … j of row tile i into its accumulators: entry p of accumulator 0 is
  the running sum, in the kernel's order, of the tiles' partial sums Σ_q e[r, col j' q]·[r ≠ col j' q] for the row r = row i p;
  accumulator 1 the same with the positives' mask, accumulator 2 the mask alone. At the last column tile the sums are the whole
  row's, and the output entry is the row's loss.
-/
import proofs.«147355_j45930380264015_1_alg».proof.Proof.KI.Data
import proofs.«147355_j45930380264015_1_alg».proof.Proof.KI.Blocks
import proofs.«147355_j45930380264015_1_alg».proof.Proof.KI.Pay
import proofs.«147355_j45930380264015_1_alg».proof.Proof.SpecLaws

set_option maxRecDepth 16384

noncomputable section

open scoped BigOperators

namespace Cert.KernelIdeal.Fr

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open Cert.Spec (row col runSum sim offDiag posMask rowLoss)

section Pieces
variable {F : FTy → Type} [FloatOps F]

/-- The zero offsets of a whole-block access, however spelt. -/
theorem hz2 : (![0, 0] : Fin 2 → Nat) = fun _ => 0 := funext fun a => by fin_cases a <;> rfl

/-! ## What each case leaves, as a value of the point's loads

A middle column tile stores once into each accumulator: what was there plus the tile's row sums. -/

/-- Accumulator 0 after a middle column tile: what the point before left plus the row sums of the tile's off-diagonal similarities. -/
theorem sout0_B_0_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) :
    sout0_B_0 c i arg2 harg2 arg3 harg3 arg4 harg4 arg5 harg5 arg6 harg6 arg7 harg7 arg8 harg8 arg9 harg9 hc0 hc1 x0 x1 x2 x3 xs0 xs1 xs2 = k0_pay1 xs0 (k0_pay11 i x0 x1) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-- Accumulator 1 after a middle column tile: what the point before left plus the row sums of the positives' similarities. -/
theorem sout0_B_1_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) :
    sout0_B_1 c i arg2 harg2 arg3 harg3 arg4 harg4 arg5 harg5 arg6 harg6 arg7 harg7 arg8 harg8 arg9 harg9 hc0 hc1 x0 x1 x2 x3 xs0 xs1 xs2 = k0_pay2 (k0_pay8 x0 x1) (k0_pay10 i x2 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-- Accumulator 2 after a middle column tile: what the point before left plus the row counts of the positives. -/
theorem sout0_B_2_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x128 .bf16) (x1 : Vec F S512x128 .bf16) (x2 : Vec F S1024x1 .i32) (x3 : Vec F S1x512 .i32) (xs0 xs1 xs2 : Vec F S1024x1 .f32) :
    sout0_B_2 c i arg2 harg2 arg3 harg3 arg4 harg4 arg5 harg5 arg6 harg6 arg7 harg7 arg8 harg8 arg9 harg9 hc0 hc1 x0 x1 x2 x3 xs0 xs1 xs2 = k0_pay3 (k0_pay10 i x2 x3) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-! The last column tile updates the accumulators the same way, then finishes. -/

/-- Accumulator 0 after the last column tile. -/
theorem sout0_C_0_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) :
    sout0_C_0 c i arg2 harg2 arg3 harg3 arg4 harg4 arg5 harg5 arg6 harg6 arg7 harg7 arg8 harg8 arg9 harg9 hc0 hc1 x0 x1 x2 x3 xs0 xs1 xs2 = k0_pay1 xs0 (k0_pay11 i x0 x1) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-- Accumulator 1 after the last column tile. -/
theorem sout0_C_1_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) :
    sout0_C_1 c i arg2 harg2 arg3 harg3 arg4 harg4 arg5 harg5 arg6 harg6 arg7 harg7 arg8 harg8 arg9 harg9 hc0 hc1 x0 x1 x2 x3 xs0 xs1 xs2 = k0_pay2 (k0_pay8 x0 x1) (k0_pay10 i x2 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-- Accumulator 2 after the last column tile. -/
theorem sout0_C_2_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) :
    sout0_C_2 c i arg2 harg2 arg3 harg3 arg4 harg4 arg5 harg5 arg6 harg6 arg7 harg7 arg8 harg8 arg9 harg9 hc0 hc1 x0 x1 x2 x3 xs0 xs1 xs2 = k0_pay3 (k0_pay10 i x2 x3) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-- The output block after the last column tile: the finish reads the three accumulators as this point's updates left them
    (the positives' sum, the positives' count, the off-diagonal sum) and stores the losses. -/
theorem out0_C_4_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x128 .bf16) (x1 : Vec F S512x128 .bf16) (x2 : Vec F S1024x1 .i32) (x3 : Vec F S1x512 .i32) (xs0 xs1 xs2 : Vec F S1024x1 .f32) :
    out0_C_4 c i arg2 harg2 arg3 harg3 arg4 harg4 arg5 harg5 arg6 harg6 arg7 harg7 arg8 harg8 arg9 harg9 hc0 hc1 x0 x1 x2 x3 xs0 xs1 xs2
      = k0_pay4 (k0_pay2 (k0_pay8 x0 x1) (k0_pay10 i x2 x3) xs1) (k0_pay3 (k0_pay10 i x2 x3) xs2) (k0_pay1 xs0 (k0_pay11 i x0 x1)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readCov_unit_zero (S := S1024x1) _ hz2, View.readAt_eq_ld, harg2.read_unread, harg3.read_unread, harg4.read_unread, harg5.read_unread, harg7.read_unread, harg8.read_unread, harg9.read_unread, View.ld_unit_zero (S := S1024x128) hz2, View.ld_unit_zero (S := S512x128) hz2, View.ld_unit_zero (S := S1024x1) hz2, View.ld_unit_zero (S := S1x512) hz2]

/-! The first column tile stores twice into each accumulator: the reset to zero, then the update, which reads the reset back. -/

/-- Accumulator 0 after the first column tile: zero plus the tile's row sums. -/
theorem sout0_A_0_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) :
    sout0_A_0 c i arg2 harg2 arg3 harg3 arg4 harg4 arg5 harg5 arg6 harg6 arg7 harg7 arg8 harg8 arg9 harg9 hc0 hc1 x0 x1 x2 x3 = k0_pay1 k0_pay5 (k0_pay11 i x0 x1) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readCov_unit_zero (S := S1024x1) _ hz2, View.readAt_eq_ld, harg2.read_unread, harg3.read_unread, harg4.read_unread, harg5.read_unread, View.ld_unit_zero (S := S1024x128) hz2, View.ld_unit_zero (S := S512x128) hz2, View.ld_unit_zero (S := S1024x1) hz2, View.ld_unit_zero (S := S1x512) hz2]

/-- Accumulator 1 after the first column tile. -/
theorem sout0_A_1_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) :
    sout0_A_1 c i arg2 harg2 arg3 harg3 arg4 harg4 arg5 harg5 arg6 harg6 arg7 harg7 arg8 harg8 arg9 harg9 hc0 hc1 x0 x1 x2 x3 = k0_pay2 (k0_pay8 x0 x1) (k0_pay10 i x2 x3) k0_pay6 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readCov_unit_zero (S := S1024x1) _ hz2, View.readAt_eq_ld, harg2.read_unread, harg3.read_unread, harg4.read_unread, harg5.read_unread, View.ld_unit_zero (S := S1024x128) hz2, View.ld_unit_zero (S := S512x128) hz2, View.ld_unit_zero (S := S1024x1) hz2, View.ld_unit_zero (S := S1x512) hz2]

/-- Accumulator 2 after the first column tile. -/
theorem sout0_A_2_eq (c : Dev nD) (i : grid0.Coords) (arg2 : Memref sig .tc .vmem S1024x128 .bf16) (harg2 : arg2.IsWhole) (arg3 : Memref sig .tc .vmem S512x128 .bf16) (harg3 : arg3.IsWhole) (arg4 : Memref sig .tc .vmem S1024x1 .i32) (harg4 : arg4.IsWhole) (arg5 : Memref sig .tc .vmem S1x512 .i32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x128 .bf16) (x1 : Vec F S512x128 .bf16) (x2 : Vec F S1024x1 .i32) (x3 : Vec F S1x512 .i32) :
    sout0_A_2 c i arg2 harg2 arg3 harg3 arg4 harg4 arg5 harg5 arg6 harg6 arg7 harg7 arg8 harg8 arg9 harg9 hc0 hc1 x0 x1 x2 x3 = k0_pay3 (k0_pay10 i x2 x3) k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2]
  simp only [View.readCov_unit_zero (S := S1024x1) _ hz2, View.readAt_eq_ld, harg2.read_unread, harg3.read_unread, harg4.read_unread, harg5.read_unread, View.ld_unit_zero (S := S1024x128) hz2, View.ld_unit_zero (S := S512x128) hz2, View.ld_unit_zero (S := S1024x1) hz2, View.ld_unit_zero (S := S1x512) hz2]

end Pieces

/-! ## The tile's entries at the ideal instance, in the specification's terms -/

variable (m : (ℓ : Loc nD τ sig) → Buf (Elt Ideal) ℓ)

/-- The normalized rows of core `c`'s first argument. -/
abbrev xnK (c : Dev nD) : FVec Ideal S8192x128 .f32 := normK (m ((c : Thread nD τ).loc main_arg0))
/-- Core `c`'s labels. -/
abbrev labK (c : Dev nD) := m ((c : Thread nD τ).loc main_arg1)

/-- Entry (p, q) of the tile's similarities at point `t`: the similarity of global row (t / 16)·1024 + p and global column
    (t % 16)·512 + q — the contraction over the two feature blocks is the Gram entry of those rows. -/
theorem simBlk (c : Dev nD) (t : Fin cfg0.N) (p : Fin 1024) (q : Fin 512) :
    k0_pay8 (F := Ideal) (iblk m c 0 t) (iblk m c 1 t) (ix2 p q)
      = sim (xnK m c) (row (t.val / 16) p) (col (t.val % 16) q) := by
  refine (Pay.pay8_apply (iblk m c 0 t) (iblk m c 1 t) p q).trans ?_
  unfold Cert.Spec.sim Cert.Spec.gram
  refine congrArg (fun s => Ideal.exp (s * 2)) (Finset.sum_congr rfl fun k _ => ?_)
  rw [iblk0_apply m c t p k, iblk1_apply m c t q k]

/-- Entry (p, q) of the tile's off-diagonal mask at point `t`: the grid coordinates are t / 16 and t % 16, and the two global
    indices are equal as numbers exactly when they are equal as indices below 8192. -/
theorem offBlk (t : Fin cfg0.N) (p : Fin 1024) (q : Fin 512) :
    k0_pay9 (F := Ideal) (grid0.coords t) (ix2 p q) = offDiag (row (t.val / 16) p) (col (t.val % 16) q) := by
  have ht := point_lt t
  refine (Pay.pay9_apply (grid0.coords t) p q).trans ?_
  rw [coords0 t, coords1 t]
  unfold Cert.Spec.offDiag
  have hiff : t.val / 16 * 1024 + p.val = t.val % 16 * 512 + q.val ↔ row (t.val / 16) p = col (t.val % 16) q := by
    rw [Fin.ext_iff]
    show _ ↔ t.val / 16 % 8 * 1024 + p.val = t.val % 16 % 16 * 512 + q.val
    omega
  by_cases h : t.val / 16 * 1024 + p.val = t.val % 16 * 512 + q.val
  · rw [if_pos h, if_pos (hiff.1 h)]
  · rw [if_neg h, if_neg (fun h' => h (hiff.2 h'))]

/-- Entry (p, q) of the tile's positives' mask at point `t`: the two label blocks hold the labels of the global row and of
    the global column. -/
theorem posBlk (c : Dev nD) (t : Fin cfg0.N) (p : Fin 1024) (q : Fin 512) :
    k0_pay10 (F := Ideal) (grid0.coords t) (iblk m c 2 t) (iblk m c 3 t) (ix2 p q)
      = posMask (labK m c) (row (t.val / 16) p) (col (t.val % 16) q) := by
  refine (Pay.pay10_apply (grid0.coords t) (iblk m c 2 t) (iblk m c 3 t) p q).trans ?_
  rw [offBlk t p q, iblk2_apply m c t p, iblk3_apply m c t q]
  rfl

/-- Entry (p, q) of the tile's off-diagonal similarities at point `t`. -/
theorem negBlk (c : Dev nD) (t : Fin cfg0.N) (p : Fin 1024) (q : Fin 512) :
    k0_pay11 (F := Ideal) (grid0.coords t) (iblk m c 0 t) (iblk m c 1 t) (ix2 p q)
      = sim (xnK m c) (row (t.val / 16) p) (col (t.val % 16) q) * offDiag (row (t.val / 16) p) (col (t.val % 16) q) := by
  refine (Pay.pay11_apply (grid0.coords t) (iblk m c 0 t) (iblk m c 1 t) p q).trans ?_
  rw [simBlk m c t p q, offBlk t p q]

/-! ## One point's step of each accumulator -/

/-- The three row sums' summands, for row tile `i`, entry `p`, at column tile `j`. -/
abbrev g0 (c : Dev nD) (i : ℕ) (p : Fin 1024) : ℕ → EReal :=
  fun j => ∑ q : Fin 512, sim (xnK m c) (row i p) (col j q) * offDiag (row i p) (col j q)
abbrev g1 (c : Dev nD) (i : ℕ) (p : Fin 1024) : ℕ → EReal :=
  fun j => ∑ q : Fin 512, sim (xnK m c) (row i p) (col j q) * posMask (labK m c) (row i p) (col j q)
abbrev g2 (c : Dev nD) (i : ℕ) (p : Fin 1024) : ℕ → EReal :=
  fun j => ∑ q : Fin 512, posMask (labK m c) (row i p) (col j q)

/-- Accumulator 0's update at point `t`, entry `p`: what was there plus (0 plus) the tile's share of the row's sum. -/
theorem step0 (c : Dev nD) (t : Fin cfg0.N) (s : Vec Ideal S1024x1 .f32) (p : Fin 1024) :
    k0_pay1 (F := Ideal) s (k0_pay11 (grid0.coords t) (iblk m c 0 t) (iblk m c 1 t)) (ix2 p 0)
      = s (ix2 p 0) + (0 + g0 m c (t.val / 16) p (t.val % 16)) := by
  refine (Pay.pay1_apply s (k0_pay11 (grid0.coords t) (iblk m c 0 t) (iblk m c 1 t)) p).trans ?_
  refine congrArg (fun x => s (ix2 p 0) + (0 + x)) (Finset.sum_congr rfl fun q _ => ?_)
  exact negBlk m c t p q

/-- Accumulator 1's update at point `t`. -/
theorem step1 (c : Dev nD) (t : Fin cfg0.N) (s : Vec Ideal S1024x1 .f32) (p : Fin 1024) :
    k0_pay2 (F := Ideal) (k0_pay8 (iblk m c 0 t) (iblk m c 1 t)) (k0_pay10 (grid0.coords t) (iblk m c 2 t) (iblk m c 3 t)) s (ix2 p 0)
      = s (ix2 p 0) + (0 + g1 m c (t.val / 16) p (t.val % 16)) := by
  refine (Pay.pay2_apply (k0_pay8 (iblk m c 0 t) (iblk m c 1 t)) (k0_pay10 (grid0.coords t) (iblk m c 2 t) (iblk m c 3 t)) s p).trans ?_
  refine congrArg (fun x => s (ix2 p 0) + (0 + x)) (Finset.sum_congr rfl fun q _ => ?_)
  rw [simBlk m c t p q, posBlk m c t p q]

/-- Accumulator 2's update at point `t`. -/
theorem step2 (c : Dev nD) (t : Fin cfg0.N) (s : Vec Ideal S1024x1 .f32) (p : Fin 1024) :
    k0_pay3 (F := Ideal) (k0_pay10 (grid0.coords t) (iblk m c 2 t) (iblk m c 3 t)) s (ix2 p 0)
      = s (ix2 p 0) + (0 + g2 m c (t.val / 16) p (t.val % 16)) := by
  refine (Pay.pay3_apply (k0_pay10 (grid0.coords t) (iblk m c 2 t) (iblk m c 3 t)) s p).trans ?_
  refine congrArg (fun x => s (ix2 p 0) + (0 + x)) (Finset.sum_congr rfl fun q _ => ?_)
  exact posBlk m c t p q

/-! ## The invariant: the accumulators are the running sums -/

/-- After the body at point `t`, entry `p` of each accumulator is the running sum, in the kernel's order, of the shares of
    column tiles 0 … t % 16 of row tile t / 16. By induction on the position: a first column tile resets to 0 and adds
    its share; any other adds its share to what the point before left, and the point before is in the same row tile, one
    column tile earlier. -/
theorem accs (c : Dev nD) : ∀ (n : ℕ) (t : Fin cfg0.N), t.val = n → ∀ p : Fin 1024,
    (outsAt0 m c t.val t.isLt).2.1 (ix2 p 0) = runSum (g0 m c (t.val / 16) p) (t.val % 16 + 1)
    ∧ (outsAt0 m c t.val t.isLt).2.2.1 (ix2 p 0) = runSum (g1 m c (t.val / 16) p) (t.val % 16 + 1)
    ∧ (outsAt0 m c t.val t.isLt).2.2.2 (ix2 p 0) = runSum (g2 m c (t.val / 16) p) (t.val % 16 + 1) := by
  intro n
  induction n using Nat.strong_induction_on with
  | _ n ih =>
    intro t ht p
    have hN := point_lt t
    by_cases h0 : t.val % 16 = 0
    · have h1 : ¬t.val % 16 = 15 := by omega
      rw [outsAt0_A m c t h0 h1]
      dsimp only
      refine ⟨?_, ?_, ?_⟩
      · refine (congrFun (sout0_A_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t)) (ix2 p 0)).trans ?_
        refine (step0 m c t (k0_pay5 (F := Ideal)) p).trans ?_
        rw [Pay.pay5_apply p, h0]
        rfl
      · refine (congrFun (sout0_A_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t)) (ix2 p 0)).trans ?_
        refine (step1 m c t (k0_pay6 (F := Ideal)) p).trans ?_
        rw [Pay.pay6_apply p, h0]
        rfl
      · refine (congrFun (sout0_A_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) ((hcond0_0 t).mpr h0) (fun h => h1 ((hcond0_1 t).mp h)) (iblk m c 0 t) (iblk m c 1 t) (iblk m c 2 t) (iblk m c 3 t)) (ix2 p 0)).trans ?_
        refine (step2 m c t (k0_pay7 (F := Ideal)) p).trans ?_
        rw [Pay.pay7_apply p, h0]
        rfl
    · have hlt : t.val - 1 < cfg0.N := Nat.lt_of_le_of_lt (Nat.sub_le _ _) t.isLt
      obtain ⟨ih0, ih1, ih2⟩ := ih (t.val - 1) (by omega) ⟨t.val - 1, hlt⟩ rfl p
      dsimp only at ih0 ih1 ih2
      rw [show (t.val - 1) / 16 = t.val / 16 from by omega, show (t.val - 1) % 16 + 1 = t.val % 16 from by omega] at ih0 ih1 ih2
      by_cases h1 : t.val % 16 = 15
      · rw [outsAt0_C m c t h0 h1]
        dsimp only
        refine ⟨?_, ?_, ?_⟩
        · refine (congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
          refine (step0 m c t (outsAt0 m c (t.val - 1) (Nat.lt_of_le_of_lt (Nat.sub_le _ _) t.isLt)).2.1 p).trans ?_
          rw [ih0]
          rfl
        · refine (congrFun (sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
          refine (step1 m c t (outsAt0 m c (t.val - 1) (Nat.lt_of_le_of_lt (Nat.sub_le _ _) t.isLt)).2.2.1 p).trans ?_
          rw [ih1]
          rfl
        · refine (congrFun (sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
          refine (step2 m c t (outsAt0 m c (t.val - 1) (Nat.lt_of_le_of_lt (Nat.sub_le _ _) t.isLt)).2.2.2 p).trans ?_
          rw [ih2]
          rfl
      · rw [outsAt0_B m c t h0 h1]
        dsimp only
        refine ⟨?_, ?_, ?_⟩
        · refine (congrFun (sout0_B_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
          refine (step0 m c t (outsAt0 m c (t.val - 1) (Nat.lt_of_le_of_lt (Nat.sub_le _ _) t.isLt)).2.1 p).trans ?_
          rw [ih0]
          rfl
        · refine (congrFun (sout0_B_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
          refine (step1 m c t (outsAt0 m c (t.val - 1) (Nat.lt_of_le_of_lt (Nat.sub_le _ _) t.isLt)).2.2.1 p).trans ?_
          rw [ih1]
          rfl
        · refine (congrFun (sout0_B_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
          refine (step2 m c t (outsAt0 m c (t.val - 1) (Nat.lt_of_le_of_lt (Nat.sub_le _ _) t.isLt)).2.2.2 p).trans ?_
          rw [ih2]
          rfl

/-- Accumulator 0 after point `t`: the off-diagonal similarities of column tiles 0 … t % 16, summed in the kernel's order. -/
theorem acc0_eq (c : Dev nD) (t : Fin cfg0.N) (p : Fin 1024) :
    (outsAt0 m c t.val t.isLt).2.1 (ix2 p 0)
      = runSum (fun j => ∑ q : Fin 512, sim (xnK m c) (row (t.val / 16) p) (col j q) * offDiag (row (t.val / 16) p) (col j q)) (t.val % 16 + 1) :=
  (accs m c t.val t rfl p).1

/-- Accumulator 1 after point `t`: the positives' similarities. -/
theorem acc1_eq (c : Dev nD) (t : Fin cfg0.N) (p : Fin 1024) :
    (outsAt0 m c t.val t.isLt).2.2.1 (ix2 p 0)
      = runSum (fun j => ∑ q : Fin 512, sim (xnK m c) (row (t.val / 16) p) (col j q) * posMask (labK m c) (row (t.val / 16) p) (col j q)) (t.val % 16 + 1) :=
  (accs m c t.val t rfl p).2.1

/-- Accumulator 2 after point `t`: the positives' count. -/
theorem acc2_eq (c : Dev nD) (t : Fin cfg0.N) (p : Fin 1024) :
    (outsAt0 m c t.val t.isLt).2.2.2 (ix2 p 0)
      = runSum (fun j => ∑ q : Fin 512, posMask (labK m c) (row (t.val / 16) p) (col j q)) (t.val % 16 + 1) :=
  (accs m c t.val t rfl p).2.2

/-! ## The finish -/

/-- At the last column tile of a row tile the output block's entry is the row's loss. The finish reads the three accumulators
    as this point's updates left them; after sixteen column tiles each running sum is the sum over the whole row. -/
theorem out_eq (c : Dev nD) (t : Fin cfg0.N) (h : t.val % 16 = 15) (p : Fin 1024) :
    (outsAt0 m c t.val t.isLt).1 (ix2 p 0) = rowLoss (xnK m c) (labK m c) (row (t.val / 16) p) := by
  have h0 : ¬t.val % 16 = 0 := by omega
  have h1 : t.val % 16 = 15 := h
  have r16 : t.val % 16 + 1 = 16 := by omega
  have e0 := acc0_eq m c t p
  have e1 := acc1_eq m c t p
  have e2 := acc2_eq m c t p
  rw [outsAt0_C m c t h0 h1] at e0 e1 e2
  dsimp only at e0 e1 e2
  have s0 : (k0_pay1 (F := Ideal) (outsAt0 m c (t.val - 1) (Nat.lt_of_le_of_lt (Nat.sub_le _ _) t.isLt)).2.1 (k0_pay11 (grid0.coords t) (iblk m c 0 t) (iblk m c 1 t))) (ix2 p 0) = ∑ c' : Fin 8192, (fun c' => sim (xnK m c) (row (t.val / 16) p) c' * offDiag (row (t.val / 16) p) c') c' :=
    ((congrFun (sout0_C_0_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).symm.trans e0).trans
      ((congrArg (runSum (g0 m c (t.val / 16) p)) r16).trans (Cert.Spec.runSum_cols (fun c' => sim (xnK m c) (row (t.val / 16) p) c' * offDiag (row (t.val / 16) p) c')))
  have s1 : (k0_pay2 (F := Ideal) (k0_pay8 (iblk m c 0 t) (iblk m c 1 t)) (k0_pay10 (grid0.coords t) (iblk m c 2 t) (iblk m c 3 t)) (outsAt0 m c (t.val - 1) (Nat.lt_of_le_of_lt (Nat.sub_le _ _) t.isLt)).2.2.1) (ix2 p 0) = ∑ c' : Fin 8192, (fun c' => sim (xnK m c) (row (t.val / 16) p) c' * posMask (labK m c) (row (t.val / 16) p) c') c' :=
    ((congrFun (sout0_C_1_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).symm.trans e1).trans
      ((congrArg (runSum (g1 m c (t.val / 16) p)) r16).trans (Cert.Spec.runSum_cols (fun c' => sim (xnK m c) (row (t.val / 16) p) c' * posMask (labK m c) (row (t.val / 16) p) c')))
  have s2 : (k0_pay3 (F := Ideal) (k0_pay10 (grid0.coords t) (iblk m c 2 t) (iblk m c 3 t)) (outsAt0 m c (t.val - 1) (Nat.lt_of_le_of_lt (Nat.sub_le _ _) t.isLt)).2.2.2) (ix2 p 0) = ∑ c' : Fin 8192, (fun c' => posMask (labK m c) (row (t.val / 16) p) c') c' :=
    ((congrFun (sout0_C_2_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).symm.trans e2).trans
      ((congrArg (runSum (g2 m c (t.val / 16) p)) r16).trans (Cert.Spec.runSum_cols (fun c' => posMask (labK m c) (row (t.val / 16) p) c')))
  rw [outsAt0_C m c t h0 h1]
  dsimp only
  refine (congrFun (out0_C_4_eq (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) scM0_2 (Memref.isWhole_whole cc0_scratch2) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) (ix2 p 0)).trans ?_
  refine (Pay.pay4_apply (k0_pay2 (F := Ideal) (k0_pay8 (iblk m c 0 t) (iblk m c 1 t)) (k0_pay10 (grid0.coords t) (iblk m c 2 t) (iblk m c 3 t)) (outsAt0 m c (t.val - 1) (Nat.lt_of_le_of_lt (Nat.sub_le _ _) t.isLt)).2.2.1) (k0_pay3 (F := Ideal) (k0_pay10 (grid0.coords t) (iblk m c 2 t) (iblk m c 3 t)) (outsAt0 m c (t.val - 1) (Nat.lt_of_le_of_lt (Nat.sub_le _ _) t.isLt)).2.2.2) (k0_pay1 (F := Ideal) (outsAt0 m c (t.val - 1) (Nat.lt_of_le_of_lt (Nat.sub_le _ _) t.isLt)).2.1 (k0_pay11 (grid0.coords t) (iblk m c 0 t) (iblk m c 1 t))) p).trans ?_
  rw [s0, s1, s2]
  rfl

end Cert.KernelIdeal.Fr

end
-- ==== Proof.KI.Launch.lean ====
/-
  THE LAUNCH: @main's run from the body obligation, for any proof data over this pipeline whose two windows on the shared array hold complementary halves of it.
-/
import proofs.«147355_j45930380264015_1_alg».proof.Proof.KI.Kit

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The mean: the four host operations after the region, applied to the per-row losses the region leaves. -/
def tailVal (y : FVec F S8192x1 .f32) : FVec F S_ .f32 :=
  Host.divf (Host.reduceAdd y (constant S_ .f32 0x00000000#32) reducesTo_S8192x1_S_d0_1 h_S_) (constant S_ .f32 0x46000000#32)

variable (m : (ℓ : Loc nD τ sig) → Buf (Elt F) ℓ) (ρ : Dev nD → PrngReg)

/-! ## The arrays: four buffers behind five windows -/

/-- The four distinct arrays behind the five windows, conjoined one by one. -/
theorem bigSep_arrs {M : Type} [URA M] (Φ : Ref sig .tc → sProp M) :
    bigSep (Finset.univ.image (Pipeline.arrRef spec0)) Φ = iprop(Φ main_v5 ∗ Φ main_v6 ∗ Φ main_v7 ∗ Φ main_v8) :=
  bigSep_eq_bigSepL_of_eq [main_v5, main_v6, main_v7, main_v8] (by decide) (by decide) Φ

/-- The proof data's arrays, window by window: the normalized rows at the two halves of the full share (windows 0 and 1), the
    two label arrays and the output array whole. -/
theorem arrays_chain (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (G : (w : Fin cfg0.W) → Buf (Elt F) ((cfg0.win w).arr.view.loc (c.tc : Thread nD τ))) :
    (dat.arrays G : sProp 𝕄)
      = iprop((((c.tc : Thread nD τ).loc main_v5) ↦{fullShare.left} G 0) ∗ (((c.tc : Thread nD τ).loc main_v5) ↦{fullShare.right} G 1)
          ∗ (((c.tc : Thread nD τ).loc main_v6) ↦{fullShare} G 2) ∗ (((c.tc : Thread nD τ).loc main_v7) ↦{fullShare} G 3)
          ∗ (((c.tc : Thread nD τ).loc main_v8) ↦{fullShare} G 4)) := by
  have hs0 : dat.share 0 = fullShare.left := by unfold Dat.share; exact (if_neg (by decide)).trans hq0
  have hs1 : dat.share 1 = fullShare.right := by unfold Dat.share; exact (if_neg (by decide)).trans hq1
  have hs2 : dat.share 2 = fullShare := by unfold Dat.share; exact (if_neg (by decide)).trans hq2
  have hs3 : dat.share 3 = fullShare := by unfold Dat.share; exact (if_neg (by decide)).trans hq3
  have hs4 : dat.share 4 = fullShare := by unfold Dat.share; exact if_pos (by decide)
  unfold Dat.arrays
  rw [bigSep_W0, hs0, hs1, hs2, hs3, hs4]
  simp only [View.set_whole]

/-- At the region's entry: the array buffers, each whole at the full share, make the proof data's arrays — the normalized
    rows' buffer split along its share between the two windows that read it. -/
theorem hsplit0 (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare)
    (hA : ∀ w, dat.A w = V m c (Pipeline.arrRef spec0 w)) :
    (Pipeline.arrBufs spec0 c (V m c) : sProp 𝕄) ⊢ dat.arrays (dat.arrAt · 0) := by
  rw [arrays_chain c dat hq0 hq1 hq2 hq3]
  unfold Pipeline.arrBufs
  rw [bigSep_arrs]
  simp only [Dat.arrAt, hA]
  iintro ⟨H5, H6, H7, H8⟩
  ihave H5' := (pointsTo_share (PosShare.mem_left_op_right fullShare)).1 $$ H5
  icases H5' with ⟨H5a, H5b⟩
  isplitl [H5a]; · iexact H5a
  isplitl [H5b]; · iexact H5b
  isplitl [H6]; · iexact H6
  isplitl [H7]; · iexact H7
  iexact H8

/-! ## The mean after the region -/

/-- The buffers the mean's four operations touch: the output array, which they read, and the four they write. -/
abbrev tailList : List (Ref sig .tc) := [main_v8, main_cst_0, main_v9, main_cst_1, main_v10]
def tailSet : Finset (DevRef τ sig) := tailList.toFinset.map ⟨Proc.devRef (sig := sig) (.tc : Proc τ), Proc.devRef_injective _⟩

theorem mem_tailSet {b : Ref sig .tc} (h : b ∈ tailList) : Proc.devRef (τ := τ) .tc b ∈ tailSet :=
  Finset.mem_map_of_mem _ (List.mem_toFinset.mpr h)

theorem hostOps1_tail : (hostOps1 : List (HloOp τ sig (Elt F))).Forall fun op => op.bufs ⊆ tailSet :=
  ⟨Finset.singleton_subset_iff.mpr (mem_tailSet (by decide)),
   Finset.insert_subset (mem_tailSet (by decide)) (Finset.insert_subset (mem_tailSet (by decide)) (Finset.singleton_subset_iff.mpr (mem_tailSet (by decide)))),
   Finset.singleton_subset_iff.mpr (mem_tailSet (by decide)),
   Finset.insert_subset (mem_tailSet (by decide)) (Finset.insert_subset (mem_tailSet (by decide)) (Finset.singleton_subset_iff.mpr (mem_tailSet (by decide))))⟩

/-- Those five buffers held whole, one by one. -/
theorem held_tailSet (c : Dev nD) (W : Valuation τ sig (Elt F)) :
    (StableHlo.held (c.tc : Thread nD τ) tailSet W : sProp 𝕄)
      = iprop((((c.tc : Thread nD τ).loc main_v8) ↦{fullShare} W (Proc.devRef .tc main_v8))
          ∗ (((c.tc : Thread nD τ).loc main_cst_0) ↦{fullShare} W (Proc.devRef .tc main_cst_0))
          ∗ (((c.tc : Thread nD τ).loc main_v9) ↦{fullShare} W (Proc.devRef .tc main_v9))
          ∗ (((c.tc : Thread nD τ).loc main_cst_1) ↦{fullShare} W (Proc.devRef .tc main_cst_1))
          ∗ (((c.tc : Thread nD τ).loc main_v10) ↦{fullShare} W (Proc.devRef .tc main_v10))) := by
  unfold StableHlo.held tailSet
  rw [bigSep_map]
  exact bigSep_eq_bigSepL_of_eq tailList rfl (by decide) _

/-- Core `c`'s buffer contents at the region's exit: the output array at `y`, every other buffer as the region found it. -/
def Wx (c : Dev nD) (y : (⟨S8192x1, .f32⟩ : BufTy).Contents (Elt F)) : Valuation τ sig (Elt F) :=
  Function.update (V0 m c) (Proc.devRef .tc main_v8) y

theorem Wx_v8 (c : Dev nD) (y : (⟨S8192x1, .f32⟩ : BufTy).Contents (Elt F)) : Wx m c y (Proc.devRef .tc main_v8) = y :=
  Function.update_self _ _ _

theorem Wx_of_ne (c : Dev nD) (y : (⟨S8192x1, .f32⟩ : BufTy).Contents (Elt F)) {b : Ref sig .tc} (h : b ≠ main_v8) :
    Wx m c y (Proc.devRef .tc b) = V m c b :=
  Function.update_of_ne (StableHlo.devRef_ne_of_ne h) _ _

theorem hostOps1_writes : (hostOps1 : List (HloOp τ sig (Elt F))).Forall fun op =>
    op.writes ⊆ ([main_cst_0, main_v9, main_cst_1, main_v10].map (Proc.devRef (τ := τ) .tc)).toFinset := by
  simp only [List.Forall, StableHlo.nullary_writes, StableHlo.binary_writes, Finset.singleton_subset_iff, List.mem_toFinset, List.mem_map]
  exact ⟨⟨_, by decide, rfl⟩, ⟨_, by decide, rfl⟩, ⟨_, by decide, rfl⟩, ⟨_, by decide, rfl⟩⟩

/-- The four operations leave every buffer they do not write as it was. -/
theorem after_of_not_mem (c : Dev nD) (y : (⟨S8192x1, .f32⟩ : BufTy).Contents (Elt F)) {b : Ref sig .tc}
    (h : b ∉ [main_cst_0, main_v9, main_cst_1, main_v10]) :
    StableHlo.after hostOps1 (Wx m c y) (Proc.devRef .tc b) = Wx m c y (Proc.devRef .tc b) :=
  StableHlo.after_of_writes_sub hostOps1 (Wx m c y) hostOps1_writes h

/-- The result buffer then holds the mean of the output array. -/
theorem after_v10 (c : Dev nD) (y : (⟨S8192x1, .f32⟩ : BufTy).Contents (Elt F)) : StableHlo.after hostOps1 (Wx m c y) (Proc.devRef .tc main_v10) = tailVal y := by
  unfold tailVal
  after_results
  rw [Wx_v8]

/-- Every buffer outside the five is, after the mean, as the region found it. -/
theorem after_rest (c : Dev nD) (y : (⟨S8192x1, .f32⟩ : BufTy).Contents (Elt F)) {b : Ref sig .tc} (h : b ∉ tailList) :
    StableHlo.after hostOps1 (Wx m c y) (Proc.devRef .tc b) = V m c b :=
  (after_of_not_mem m c y fun hm => h (List.mem_cons_of_mem _ hm)).trans (Wx_of_ne m c y fun e => h (e ▸ List.mem_cons_self))

/-- The output array itself is not written by the mean. -/
theorem after_v8 (c : Dev nD) (y : (⟨S8192x1, .f32⟩ : BufTy).Contents (Elt F)) : StableHlo.after hostOps1 (Wx m c y) (Proc.devRef .tc main_v8) = y :=
  (after_of_not_mem m c y (by decide)).trans (Wx_v8 m c y)

/-- THE MEAN'S RUN: from the region's exit — the boundary, the proof data's arrays as the write-backs leave them, the
    bypassing buffers as the region found them — the four operations run within the output array and the four buffers they
    write, and hand back the arrays untouched and the bypassing buffers at the contents after them. -/
theorem tail_wp (c : Dev nD) (dat : Dat τ (Elt F) Unit ℕ (UR sig nD τ) ℕ cfg0 c)
    (hq0 : dat.q 0 = fullShare.left) (hq1 : dat.q 1 = fullShare.right)
    (hq2 : dat.q 2 = fullShare) (hq3 : dat.q 3 = fullShare) (Q' : PUnit → sProp 𝕄) :
    iprop((iprop(dat.arrays (dat.arrAt · cfg0.N)
              ∗ Pipeline.unscopedRest spec0 c (fun b => StableHlo.after hostOps1 (Wx m c (dat.arrAt 4 cfg0.N)) (Proc.devRef .tc b))) -∗ Q' ⟨⟩)
        ∗ boundary (c.tc : Thread nD τ) ∗ dat.arrays (dat.arrAt · cfg0.N) ∗ Pipeline.unscopedRest spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1]) Q' := by
  have h := StableHlo.wp_seq (defs := Pipeline.defs (fun q => (cfgs q).toPCfg (Val := Elt F)) defs₀) (Ix := Unit) (Name := ℕ) (U := UR sig nD τ) (Lvl := ℕ)
    (Variants.lift Variants.none) none Set.univ c tailSet (fun _ => pure ⟨⟩) (K := Q') hostOps1
    (List.forall_iff_forall_mem.mp hostOps1_tail) (List.forall_iff_forall_mem.mp hostOps1_fresh) (Wx m c (dat.arrAt 4 cfg0.N))
  rw [held_tailSet, held_tailSet, Wx_v8, Wx_of_ne m c _ (b := main_cst_0) (by decide), Wx_of_ne m c _ (b := main_v9) (by decide),
    Wx_of_ne m c _ (b := main_cst_1) (by decide), Wx_of_ne m c _ (b := main_v10) (by decide), after_v8] at h
  rw [arrays_chain c dat hq0 hq1 hq2 hq3, unscopedRest0_eq, unscopedRest0_eq, Pipeline.chain_cons, Pipeline.chain_nil]
  simp only [after_rest m c _ (b := main_arg0) (by decide), after_rest m c _ (b := main_arg1) (by decide),
    after_rest m c _ (b := main_call0_v0) (by decide), after_rest m c _ (b := main_call0_cst) (by decide),
    after_rest m c _ (b := main_call0_v1) (by decide), after_rest m c _ (b := main_call0_v2) (by decide),
    after_rest m c _ (b := main_v0) (by decide), after_rest m c _ (b := main_cst) (by decide),
    after_rest m c _ (b := main_v1) (by decide), after_rest m c _ (b := main_v2) (by decide),
    after_rest m c _ (b := main_v3) (by decide), after_rest m c _ (b := main_v4) (by decide)]
  iintro ⟨Hk, Hb, ⟨Ha0, Ha1, Ha2, Ha3, Ha4⟩, R0, R1, R2, R3, R4, R5, R6, R7, R8, R9, R10, R11, R12, R13, R14, R15⟩
  iapply h $$ [Hb Ha4 R12 R13 R14 R15]
  · isplitl [Hb]; · iexact Hb
    isplitl [Ha4]; · iexact Ha4
    isplitl [R12]; · iexact R12
    isplitl [R13]; · iexact R13
    isplitl [R14]; · iexact R14
    iexact R15
  iintro ⟨Hb, Ha4, R12, R13, R14, R15⟩
  rw [wp_pure]
  imodintro
  iapply Hk
  isplitl [Ha0 Ha1 Ha2 Ha3 Ha4]
  · isplitl [Ha0]; · iexact Ha0
    isplitl [Ha1]; · iexact Ha1
    isplitl [Ha2]; · iexact Ha2
    isplitl [Ha3]; · iexact Ha3
    iexact Ha4
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact R15

/-! ## The arguments -/

theorem hostOps_before_writes : (List.flatten [hostOps0, hostOps0_1] : List (HloOp τ sig (Elt F))).Forall fun op =>
    op.writes ⊆ ([main_call0_v0, main_call0_cst, main_call0_v1, main_call0_v2, main_v0, main_cst, main_v1, main_v2, main_v3, main_v4,
      main_v5, main_v6, main_v7].map (Proc.devRef (τ := τ) .tc)).toFinset := by
  simp only [hostOps0, hostOps0_1, List.flatten_cons, List.flatten_nil, List.append_nil, List.cons_append, List.nil_append, List.Forall,
    StableHlo.TRef.nullary, StableHlo.TRef.unary, StableHlo.TRef.binary,
    StableHlo.nullary_writes, StableHlo.unary_writes, StableHlo.binary_writes, StableHlo.reshape_writes,
    Finset.singleton_subset_iff, List.mem_toFinset, List.mem_map]
  exact ⟨⟨_, by decide, rfl⟩, ⟨_, by decide, rfl⟩, ⟨_, by decide, rfl⟩, ⟨_, by decide, rfl⟩, ⟨_, by decide, rfl⟩, ⟨_, by decide, rfl⟩, ⟨_, by decide, rfl⟩,
    ⟨_, by decide, rfl⟩, ⟨_, by decide, rfl⟩, ⟨_, by decide, rfl⟩, ⟨_, by decide, rfl⟩, ⟨_, by decide, rfl⟩, ⟨_, by decide, rfl⟩⟩

/-- A buffer none of the operations before the region writes is, at the region's entry, as launched. -/
theorem V_of_not_written (c : Dev nD) {b : Ref sig .tc}
    (h : b ∉ [main_call0_v0, main_call0_cst, main_call0_v1, main_call0_v2, main_v0, main_cst, main_v1, main_v2, main_v3, main_v4, main_v5, main_v6, main_v7]) :
    V m c b = m ((c.tc : Thread nD τ).loc b) :=
  StableHlo.after_of_writes_sub (List.flatten [hostOps0, hostOps0_1]) (fun b => m (c, b)) hostOps_before_writes h

/-! ## The launch -/

/-- @main's run, from a body obligation. Windows 0 and 1 read ONE array (the normalized rows): the proof data hold it at two
    complementary halves of the full share; the other input arrays and the output array are held whole. Every weakly fair
    execution terminates; the result is the mean of the output array as the write-backs leave it; the arguments are unchanged. -/
theorem run_of (dats : (p : Fin 1) → (c : Dev nD) → Dat τ (Elt F) Unit ℕ (UR sig nD τ) ℕ (cfgs p) c)
    (hbody : ∀ c, BodyObligation (dats 0 c) (defs₀ (F := F)) Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_v10) = tailVal ((dats 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) (fun c => (hbody c).loose)
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit0 m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest spec0 c (V m c))
    (Z' := fun c => Pipeline.unscopedRest spec0 c (fun b => StableHlo.after hostOps1 (Wx m c ((dats 0 c).arrAt 4 cfg0.N)) (Proc.devRef .tc b)))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_wp m c (dats 0 c) (hq0 c) (hq1 c) (hq2 c) (hq3 c) Q')
    (QY := fun c s => ∀ b ∈ Pipeline.restRefs sig spec0, s.mem ((c.tc : Thread nD τ).loc b) = StableHlo.after hostOps1 (Wx m c ((dats 0 c).arrAt 4 cfg0.N)) (Proc.devRef .tc b))
    (hY := fun c s' => by
      iintro ⟨-, HU, HSI⟩
      unfold Pipeline.unscopedRest
      imodintro
      iapply (pointsTo_read_all (Pipeline.restRefs sig spec0) (fun b => (c.tc : Thread nD τ).loc b)
        (fun b => StableHlo.after hostOps1 (Wx m c ((dats 0 c).arrAt 4 cfg0.N)) (Proc.devRef .tc b)) s')
      isplitl [HU] <;> iassumption)
    (hQ := fun s h c =>
      ⟨((h c).2.2 main_v10 (Pipeline.mem_restRefs_of main_v10 rfl (by decide))).trans (after_v10 m c _),
       ((h c).2.2 main_arg0 (Pipeline.mem_restRefs_of main_arg0 rfl (by decide))).trans
         ((after_rest m c _ (by decide)).trans (V_of_not_written m c (by decide))),
       ((h c).2.2 main_arg1 (Pipeline.mem_restRefs_of main_arg1 rfl (by decide))).trans
         ((after_rest m c _ (by decide)).trans (V_of_not_written m c (by decide)))⟩)

end Cert.KernelIdeal.Fr

end
-- ==== Proof.KI.Run.lean ====
/-
  @main's run for this program: the launch applied to the kernel's proof data. Every weakly fair execution terminates; the result
  is the mean of the per-row losses the write-backs leave; the two arguments are unchanged. The frame is that run with the
  result dropped.
-/
import proofs.«147355_j45930380264015_1_alg».proof.Proof.KI.Data
import proofs.«147355_j45930380264015_1_alg».proof.Proof.KI.Launch

set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, at any float instance. -/
theorem run_main : θ_run defs (onTc (τ := τ) (main (F := F))) ⟨m, fun _ => 0, ρ⟩ (fun r => ∀ c : Dev nD,
      r.2.mem ((c.tc : Thread nD τ).loc main_v10) = tailVal ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_of m ρ (dats m) (body_obligation m) (hq0 m) (hq1 m) (hq2 m) (hq3 m) (howed m) (A_eq m) (hin m) (hout m)

/-- The frame: it runs to the end, faults nowhere, and leaves both arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run_main m ρ)

end Cert.KernelIdeal.Fr

end
-- ==== Proof.KI.Tail.lean ====
/-
  The mean's host operations read at the extended reals: the sum of the 8192 row losses divided by what the word of
  8192.0 denotes.
-/
import proofs.«147355_j45930380264015_1_alg».proof.Proof.KI.Launch
import proofs.«147355_j45930380264015_1_alg».proof.Proof.SpecLaws
import Idealize.ShloMosaic.Lib.IdealHost
import Idealize.ShloMosaic.Lib.ValueIdx
import Idealize.ShloMosaic.PureOps.Ideal.Laws
import Mathlib.Algebra.BigOperators.Fin

noncomputable section

open scoped BigOperators

namespace Cert.KernelIdeal.Fr

open Cert.KernelIdeal.Gen
open Idealize.ShloMosaic Idealize.ShloMosaic.ValueIdx

/-- The mean at the extended reals: the host sum over both axes of the [8192, 1] array of row losses, from the zero word,
    is 0 plus the sum over every index, and the second coordinate has one value, so it is the sum over the 8192 rows;
    the host quotient is the exact division by what the word of 8192.0 denotes. -/
theorem tailVal_ideal (y : FVec Ideal S8192x1 .f32) :
    tailVal (F := Ideal) y = fun _ => Ideal.div (∑ r : Fin 8192, y (ix2 r 0)) (Ideal.ofBits .f32 0x46000000#32) := by
  funext j
  unfold tailVal
  rw [hostDivf_apply, hostReduceAdd_apply, Ideal.hostReduceAdd_total _ (fun b => b.elim0), constant_apply, constant_apply,
    Ideal.ofBits_zero_f32, zero_add, sum_idx2]
  congr 1
  refine Finset.sum_congr rfl (fun r _ => ?_)
  rw [Fin.sum_univ_one]

end Cert.KernelIdeal.Fr

end
-- ==== Proof.KI.Value.lean ====
/-
  The kernel program's value, at the ideal instance: its run ends with the result at the specification's value of the normalized
  rows and the labels. The output array is written back once per row tile, at that tile's last column tile, with the rows' losses;
  the eight blocks cover the array; the mean after the region is then the specification's mean.
-/
import proofs.«147355_j45930380264015_1_alg».proof.Proof.KI.Acc
import proofs.«147355_j45930380264015_1_alg».proof.Proof.KI.Run
import proofs.«147355_j45930380264015_1_alg».proof.Proof.KI.Tail

set_option maxRecDepth 16384

noncomputable section

open scoped BigOperators

namespace Cert.KernelIdeal.Fr

open Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable (m : (ℓ : Loc nD τ sig) → Buf (Elt Ideal) ℓ) (ρ : Dev nD → PrngReg)

/-! ## The output array after the write-backs -/

/-- The contents the write-backs leave in the output array: entry (r, ·) is row `r`'s loss. -/
def lossArr (c : Dev nD) : S8192x1.Idx → Elt Ideal .f32 :=
  fun y => Cert.Spec.rowLoss (xnK m c) (labK m c) ⟨(y 0).val, idx2_lt0 y⟩

/-- The output window's index map, decided over the grid: point t = 16·i + j writes block (i, 0). -/
theorem out_index : ∀ t : Fin cfg0.N, win0_4.index t (0 : Fin 2) = t.val / 16 ∧ win0_4.index t (1 : Fin 2) = 0 :=
  (by decide +kernel : ∀ t : Fin grid0.N, win0_4.index t (0 : Fin 2) = t.val / 16 ∧ win0_4.index t (1 : Fin 2) = 0)

/-- What a last column tile writes back is its block of the rows' losses: entry p of row tile i is row 1024·i + p. -/
theorem flushed_out (c : Dev nD) (t : Fin cfg0.N) (hf : t.val % 16 = 15) :
    (dats m 0 c).flushed 4 t = ((cfg0.win 4).blk t).view.read (Elt Ideal) (lossArr m c) := by
  show (cfg0.win 4).cut (grid0.coords t) ((dats m 0 c).after 4 t) = _
  rw [after0_4]
  obtain ⟨e0, e1⟩ := out_index t
  have hN := point_lt t
  funext j
  obtain ⟨p, q, rfl⟩ : ∃ (p : Fin 1024) (q : Fin 1), j = ix2 p q := ⟨j 0, j 1, eq_ix2 j⟩
  obtain rfl : q = 0 := Subsingleton.elim _ _
  show (outsAt0 m c t.val t.isLt).1 (ix2 p 0) = lossArr m c (((cfg0.win 4).blk t).view.emb (ix2 p 0))
  rw [out_eq m c t hf p]
  unfold lossArr
  refine congrArg (Cert.Spec.rowLoss (xnK m c) (labK m c)) (Fin.ext ?_)
  show (t.val / 16 % 8) * 1024 + p.val = win0_4.index t (0 : Fin 2) * 1024 + 1 * p.val
  rw [e0]; omega

/-- An index of the array is in point `t`'s block iff each coordinate is in the block's range on its axis. -/
theorem mem_out_blk (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- The eight written blocks cover the array: row r is in the block of point 16·(r / 1024) + 15. -/
theorem out_cover (i : S8192x1.Idx) : ∃ t : Fin cfg0.N, (cfg0.win 4).flush t = true ∧ i ∈ ((cfg0.win 4).blk t).view.set := by
  have hi0 : (i 0).val < 8192 := idx2_lt0 i
  have hi1 : (i 1).val < 1 := idx2_lt1 i
  have hlt : 16 * ((i 0).val / 1024) + 15 < cfg0.N := by rw [show cfg0.N = grid0.N from rfl, N_0]; omega
  obtain ⟨e0, e1⟩ := out_index ⟨16 * ((i 0).val / 1024) + 15, hlt⟩
  have e0' : win0_4.index ⟨16 * ((i 0).val / 1024) + 15, hlt⟩ (0 : Fin 2) = (i 0).val / 1024 := by
    rw [e0]; show (16 * ((i 0).val / 1024) + 15) / 16 = _; omega
  refine ⟨⟨16 * ((i 0).val / 1024) + 15, hlt⟩, (flush0_4 _).mpr (by show (16 * ((i 0).val / 1024) + 15) % 16 = 15; omega), ?_⟩
  rw [mem_out_blk]
  intro a
  match a with
  | ⟨0, _⟩ =>
    show win0_4.index ⟨16 * ((i 0).val / 1024) + 15, hlt⟩ (0 : Fin 2) * 1024 ≤ (i 0).val ∧ (i 0).val < win0_4.index ⟨16 * ((i 0).val / 1024) + 15, hlt⟩ (0 : Fin 2) * 1024 + 1024
    rw [e0']; omega
  | ⟨1, _⟩ =>
    show win0_4.index ⟨16 * ((i 0).val / 1024) + 15, hlt⟩ (1 : Fin 2) * 1 ≤ (i 1).val ∧ (i 1).val < win0_4.index ⟨16 * ((i 0).val / 1024) + 15, hlt⟩ (1 : Fin 2) * 1 + 1
    rw [e1]; omega

/-- The output array after the last write-back holds the rows' losses. -/
theorem out_arr (c : Dev nD) : (dats m 0 c).arrAt 4 cfg0.N = lossArr m c :=
  (dats m 0 c).arrAt_eq_of_cover 4 (lossArr m c) (fun t hf => flushed_out m c t ((flush0_4 t).mp hf)) out_cover

/-- The output array after the last write-back: row `r`'s loss at entry (r, 0). -/
theorem final4 (c : Dev nD) (r : Fin 8192) :
    (dats m 0 c).arrAt 4 cfg0.N (ix2 r 0) = Cert.Spec.rowLoss (xnK m c) (labK m c) r := by
  rw [out_arr]; rfl

/-! ## The mean of the written losses, and the run -/

/-- The mean's host operations, applied to an array whose entry (r, 0) is row `r`'s loss, give the specification's value. -/
theorem tailVal_of_rows (y : FVec Ideal S8192x1 .f32) (a : Cert.Spec.T8192x128.Idx → EReal) (lab : Cert.Spec.T8192.Idx → BitVec 32)
    (hy : ∀ r : Fin 8192, y (ix2 r 0) = Cert.Spec.rowLoss a lab r) :
    tailVal (F := Ideal) y = fun _ => Cert.Spec.G a lab := by
  rw [tailVal_ideal]
  funext _
  unfold Cert.Spec.G
  exact congrArg (Ideal.div · _) (Finset.sum_congr rfl fun r _ => hy r)

/-- So the mean of the output array after the region is the specification's value of the normalized rows and the labels. -/
theorem tail_value (c : Dev nD) :
    tailVal (F := Ideal) ((dats m 0 c).arrAt 4 cfg0.N) = fun _ => Cert.Spec.G (xnK m c) (labK m c) :=
  tailVal_of_rows _ _ _ (final4 m c)

/-- The run at the ideal instance, the result named: the specification's value. -/
theorem value_run : θ_run (defs (F := Ideal)) (onTc (τ := τ) (main (F := Ideal))) ⟨m, fun _ => 0, ρ⟩ (fun r => ∀ c : Dev nD,
      r.2.mem ((c.tc : Thread nD τ).loc main_v10)
        = (fun _ => Cert.Spec.G (normK (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (tail_value m c), (h c).2⟩) (run_main (F := Ideal) m ρ)

end Cert.KernelIdeal.Fr

end
-- ==== Proof.Ref.lean ====
/-
  The reference read back: its run ends with the result at the specification's value of the normalized rows and the labels.

  The reference normalizes each row (a[r,k] = x[r,k] / max(sqrt(Σ_k x[r,k]²), ε)), forms the Gram matrix of the
  normalized rows, divides it by one half and exponentiates, masks the diagonal with 1 − [r = c] and the labels with
  [lab r = lab c], sums the three masked rows, and averages −log((pos / cnt) / neg) over the rows. Read index by index
  this is the specification's `G` of the normalized rows and the labels: dividing by one half is doubling on every
  extended real, a sum started at the zero word is the sum, and the two masks are the specification's indicator functions.
-/
import proofs.«147355_j45930380264015_1_alg».proof.Proof.Gen.ReferenceIdeal.Run
import proofs.«147355_j45930380264015_1_alg».proof.Proof.Gen.ReferenceIdeal.Read
import proofs.«147355_j45930380264015_1_alg».proof.Proof.Spec
import proofs.«147355_j45930380264015_1_alg».proof.Proof.SpecLaws

noncomputable section

open scoped BigOperators

namespace Cert.RefValue

open Idealize.ShloMosaic Idealize.ShloMosaic.TcCoe Idealize.SL.Sem Idealize.ShloMosaic.StableHlo Idealize.ShloMosaic.ValueIdx
open Cert.ReferenceIdeal Cert.ReferenceIdeal.Gen Cert.ReferenceIdeal.Read

/-! ## Words: a one-bit condition as a float, and the comparison of two row numbers -/

/-- A one-bit word converted to a float is its indicator. -/
theorem uitofp_bit (b : BitVec 1) : FloatOps.uitofp (F := Ideal) .f32 b = if b = 1#1 then 1 else 0 := by
  rcases BitVec.eq_zero_or_eq_one b with h | h <;> subst h <;> simp [FloatOps.uitofp]

/-- The equality comparison of two words is the bit of their equality. -/
theorem cmpi_eq (a b : BitVec 32) : IntOp.cmpi .eq a b = if a = b then 1#1 else 0#1 := by
  unfold IntOp.cmpi
  by_cases h : a = b
  · subst h; simp
  · rw [if_neg h]; show BitVec.ofBool (a == b) = 0#1; rw [beq_eq_false_iff_ne.mpr h]; rfl

/-- The float of an equality comparison is the indicator of the equality. -/
theorem uitofp_cmpi_eq (a b : BitVec 32) :
    FloatOps.uitofp (F := Ideal) .f32 (IntOp.cmpi .eq a b) = if a = b then 1 else 0 := by
  rw [cmpi_eq, uitofp_bit]
  by_cases h : a = b
  · rw [if_pos h, if_pos rfl, if_pos h]
  · rw [if_neg h, if_neg (by decide), if_neg h]

/-- Row and column numbers below 8192 are equal as 32-bit words (the row's plus the zero word) exactly when equal. -/
theorem iota_eq (r c : Fin 8192) : (IntOp.addi (BitVec.ofNat 32 r.val) 0#32 = BitVec.ofNat 32 c.val) ↔ r = c := by
  unfold IntOp.addi
  rw [BitVec.add_zero]
  constructor
  · intro h
    have := congrArg BitVec.toNat h
    simp only [BitVec.toNat_ofNat] at this
    have hr := r.isLt; have hc := c.isLt
    exact Fin.ext (by omega)
  · rintro rfl; rfl

/-- The reference's normalized rows as a function of its first argument: each entry divided by the larger of its row's
    Euclidean norm and ε. -/
def normR (x : FVec Ideal S8192x128 .f32) : FVec Ideal S8192x128 .f32 :=
  Host.divf (F := Ideal) x (broadcastInDim S8192x128 ![0, 1] bcast_S8192x1_S8192x128_0_1
    (maximumf (Host.sqrt (F := Ideal) (broadcastInDim S8192x1 ![0] bcast_S8192_S8192x1_0
      (Host.reduceAdd (F := Ideal) (mulf x x) (constant (F := Ideal) S_ .f32 0x00000000#32) reducesTo_S8192x128_S8192_d1 h_S_)))
      (broadcastInDim S8192x1 ![] bcast_S_S8192x1 (constant (F := Ideal) S_ .f32 0x2B8CBCCC#32))))

/-- The normalized rows are the stage the reference's later operations read. -/
theorem normR_eq (x : FVec Ideal S8192x128 .f32) : val_main_v4 (F := Ideal) x = normR x := rfl

/-! ## The Gram matrix and the similarity -/

/-- The dot_general of the normalized rows with their transpose is the Gram matrix. -/
theorem gram_eq (x : FVec Ideal S8192x128 .f32) (r c : Fin 8192) :
    val_main_v6 (F := Ideal) x (ix2 r c) = Cert.Spec.gram (normR x) r c := by
  rw [val_main_v6_apply]
  unfold Cert.Spec.gram
  refine Finset.sum_congr rfl fun k _ => ?_
  rw [val_main_v5_apply, normR_eq]
  have e1 : lidx_main_v6 (ix2 r c) k = ix2 r k := funext fun a => Fin.ext (by match a with | ⟨0, _⟩ => rfl | ⟨1, _⟩ => rfl)
  have e2 : idx_main_v5 (ridx_main_v6 (ix2 r c) k) = ix2 c k := funext fun a => Fin.ext (by match a with | ⟨0, _⟩ => rfl | ⟨1, _⟩ => rfl)
  rw [e1, e2]

/-- Dividing the Gram entry by one half and exponentiating is the similarity exp(2·gram). -/
theorem sim_eq (x : FVec Ideal S8192x128 .f32) (r c : Fin 8192) :
    val_main_v9 (F := Ideal) x (ix2 r c) = Cert.Spec.sim (normR x) r c := by
  rw [val_main_v9_apply, val_main_v8_apply, val_main_v7_apply, val_main_cst_0_apply, gram_eq]
  show Ideal.exp (Ideal.div (Cert.Spec.gram (normR x) r c) (Ideal.ofBits .f32 0x3F000000#32)) = _
  rw [Cert.Spec.div_half]; rfl

/-! ## The two masks -/

/-- One minus the float of "row number (plus zero) equals column number" is the off-diagonal indicator. -/
theorem offDiag_eq (r c : Fin 8192) : val_main_v17 (F := Ideal) (ix2 r c) = Cert.Spec.offDiag r c := by
  rw [val_main_v17_apply, val_main_v16_apply, val_main_cst_1_apply, val_main_v15_apply, val_main_v14_apply,
    val_main_v13_apply, val_main_v10_apply, val_main_v12_apply, val_main_c_apply, val_main_v11_apply]
  show (Ideal.ofBits .f32 0x3F800000#32 : EReal)
    - FloatOps.uitofp (F := Ideal) .f32 (IntOp.cmpi .eq (IntOp.addi (BitVec.ofNat 32 r.val) 0#32) (BitVec.ofNat 32 c.val)) = _
  rw [Cert.Spec.ofBits_one, uitofp_cmpi_eq, Cert.Spec.one_sub_ite]
  unfold Cert.Spec.offDiag
  by_cases h : r = c
  · rw [if_pos ((iota_eq r c).mpr h), if_pos h]
  · rw [if_neg (fun h' => h ((iota_eq r c).mp h')), if_neg h]

/-- The float of "the row's label equals the column's label" is the same-label indicator. -/
theorem sameLab_eq (lab : IVec S8192 32) (r c : Fin 8192) :
    val_main_v25 (F := Ideal) lab (ix2 r c) = Cert.Spec.sameLab lab r c := by
  rw [val_main_v25_apply, val_main_v24_apply, val_main_v22_apply, val_main_v20_apply, val_main_v23_apply, val_main_v21_apply]
  have e1 : idx_main_v20 (idx_main_v22 (ix2 r c)) = ix1 r := funext fun a => Fin.ext (by match a with | ⟨0, _⟩ => rfl)
  have e2 : idx_main_v21 (idx_main_v23 (ix2 r c)) = ix1 c := funext fun a => Fin.ext (by match a with | ⟨0, _⟩ => rfl)
  rw [e1, e2, uitofp_cmpi_eq]
  rfl

/-- The product of the two masks is the positives' mask. -/
theorem posMask_eq (lab : IVec S8192 32) (r c : Fin 8192) :
    val_main_v26 (F := Ideal) lab (ix2 r c) = Cert.Spec.posMask lab r c := by
  rw [val_main_v26_apply, sameLab_eq, offDiag_eq]; rfl

/-! ## The three row sums: each starts at the zero word, so it is the sum -/

/-- The row's index at column `k`, for each of the three sums. -/
theorem row_idx (r k : Fin 8192) : idx_main_v19 (ix1 r) k = ix2 r k :=
  funext fun a => Fin.ext (by match a with | ⟨0, _⟩ => rfl | ⟨1, _⟩ => rfl)

theorem negSum_eq (x : FVec Ideal S8192x128 .f32) (r : Fin 8192) :
    val_main_v19 (F := Ideal) x (ix1 r) = Cert.Spec.negSum (normR x) r := by
  rw [val_main_v19_apply, val_main_cst_2_apply]
  show Ideal.ofBits .f32 0x00000000#32 + _ = _
  rw [Ideal.ofBits_zero_f32, zero_add]
  unfold Cert.Spec.negSum
  refine Finset.sum_congr rfl fun k _ => ?_
  rw [row_idx, val_main_v18_apply, sim_eq, offDiag_eq]; rfl

theorem posCnt_eq (lab : IVec S8192 32) (r : Fin 8192) :
    val_main_v27 (F := Ideal) lab (ix1 r) = Cert.Spec.posCnt lab r := by
  rw [val_main_v27_apply, val_main_cst_3_apply]
  show Ideal.ofBits .f32 0x00000000#32 + _ = _
  rw [Ideal.ofBits_zero_f32, zero_add]
  unfold Cert.Spec.posCnt
  refine Finset.sum_congr rfl fun k _ => ?_
  show val_main_v26 (F := Ideal) lab (idx_main_v19 (ix1 r) k) = _
  rw [row_idx, posMask_eq]

theorem posSum_eq (x : FVec Ideal S8192x128 .f32) (lab : IVec S8192 32) (r : Fin 8192) :
    val_main_v29 (F := Ideal) x lab (ix1 r) = Cert.Spec.posSum (normR x) lab r := by
  rw [val_main_v29_apply, val_main_cst_4_apply]
  show Ideal.ofBits .f32 0x00000000#32 + _ = _
  rw [Ideal.ofBits_zero_f32, zero_add]
  unfold Cert.Spec.posSum
  refine Finset.sum_congr rfl fun k _ => ?_
  show val_main_v28 (F := Ideal) x lab (idx_main_v19 (ix1 r) k) = _
  rw [row_idx, val_main_v28_apply, sim_eq, posMask_eq]; rfl

/-! ## The loss of a row, and the mean -/

theorem rowLoss_eq (x : FVec Ideal S8192x128 .f32) (lab : IVec S8192 32) (r : Fin 8192) :
    val_main_v33 (F := Ideal) x lab (ix1 r) = Cert.Spec.rowLoss (normR x) lab r := by
  rw [val_main_v33_apply, val_main_v32_apply, val_main_v31_apply, val_main_v30_apply, posSum_eq, posCnt_eq, negSum_eq]
  rfl

/-- The rank-1 index set of the rows is their range. -/
def rowEquiv : S8192.Idx ≃ Fin 8192 where
  toFun i := i 0
  invFun := ix1
  left_inv i := (eq_ix1 i).symm
  right_inv _ := rfl

/-- The reference's result, as a function of its two arguments, is the specification's value of the normalized rows
    and the labels. -/
theorem result_eq (x : FVec Ideal S8192x128 .f32) (lab : IVec S8192 32) :
    val_main_v35 (F := Ideal) x lab = fun _ => Cert.Spec.G (normR x) lab := by
  funext i
  rw [val_main_v35_apply, val_main_v34_apply, val_main_cst_5_apply, val_main_cst_6_apply]
  show Ideal.div (Ideal.ofBits .f32 0x00000000#32 + ∑ j : S8192.Idx, val_main_v33 (F := Ideal) x lab j)
    (Ideal.ofBits .f32 0x46000000#32) = _
  rw [Ideal.ofBits_zero_f32, zero_add, ← Equiv.sum_comp rowEquiv.symm]
  unfold Cert.Spec.G
  exact congrArg (Ideal.div · _) (Finset.sum_congr rfl fun r _ => rowLoss_eq x lab r)

/-! ## The run -/

/-- Every weakly fair execution of the reference terminates with its result at the specification's value of the
    normalized rows and the labels, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35)
        = (fun _ => Cert.Spec.G (normR (m ((c.tc : Thread nD τ).loc main_arg0))) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun _ h c => ⟨(h c).1.trans ((val_main_v35_eq m c).trans (result_eq _ _)), (h c).2⟩)
    (Cert.ReferenceIdeal.Value.run (F := Ideal) m ρ)

end Cert.RefValue

end
-- ==== Proof.lean ====
/-
  The certificate's five claims.

  Both programs normalize the 8192 rows of the first argument, form the Gram matrix of the normalized rows and exponentiate
  twice its entries; per row they sum the off-diagonal similarities, the similarities of the other rows with the same label,
  and count those rows; the row's loss is −log((positives / count) / negatives) and the result is the mean loss. The kernel
  does it tile by tile — 8 row tiles by 16 column tiles, three accumulators per row tile reset at the first column tile, the
  losses written at the last — and the reference on whole arrays. On the extended reals a sum does not depend on how it is
  tiled or where its zeros are added, a product with 2 is the quotient by 1/2, 0 − x is −x, and a one-bit compare read as a
  float is 0 or 1 however it is widened: so the two results are one function of the arguments (Spec.lean), with no use of the
  inputs' finiteness.

    frame_Kernel, frame_KernelIdeal — the kernel program's run (KB/Run.lean at the word level, KI/Run.lean for the idealized text):
      the body's run in each of its three cases, the accumulators' contents point by point, the launch with the two feature
      windows holding complementary halves of the one array they both read, and the mean's host operations after the region.
    frame_ReferenceIdeal — the reference's run read back, its result dropped.
    preserves_Kernel_KernelIdeal — the ideal pass rewrote nothing: the statement is True.
    algebraic_KernelIdeal_ReferenceIdeal — KI/Value.lean ends the kernel's run at the specification's value of the normalized
      rows and the labels, Ref.lean the reference's at the same value; the two normalizations are one chain of operations.
-/
import proofs.«147355_j45930380264015_1_alg».proof.Defs
import proofs.«147355_j45930380264015_1_alg».proof.Proof.Gen.Kernel
import proofs.«147355_j45930380264015_1_alg».proof.Proof.Gen.KernelIdeal
import proofs.«147355_j45930380264015_1_alg».proof.Proof.Gen.ReferenceIdeal
import proofs.«147355_j45930380264015_1_alg».proof.Proof.Gen.Pre_finite_inputs
import proofs.«147355_j45930380264015_1_alg».proof.Proof.KB.Run
import proofs.«147355_j45930380264015_1_alg».proof.Proof.KI.Value
import proofs.«147355_j45930380264015_1_alg».proof.Proof.Ref
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments unchanged. -/
theorem frame_k : Cert.frame_Kernel := fun m ρ _ => Cert.Kernel.Fr.frame (F := Bits) m ρ

/-- The same of its idealized text. -/
theorem frame_ki : Cert.frame_KernelIdeal := fun m ρ _ => Cert.KernelIdeal.Fr.frame (F := Ideal) m ρ

/-- The reference's frame is its run with the result dropped. -/
theorem frame_ri : Cert.frame_ReferenceIdeal := fun m ρ _ =>
  (θ_run Cert.ReferenceIdeal.defs _ _).mono (fun _ h c => (h c).2) (Cert.RefValue.run m ρ)

/-- The two programs normalize the rows by the same chain of operations. -/
theorem norm_eq (x : FVec Ideal Cert.KernelIdeal.S8192x128 .f32) : Cert.RefValue.normR x = Cert.KernelIdeal.Fr.normK x := rfl

/-- From memories agreeing on the arguments both runs end at the specification's value of them. -/
theorem algebraic : Cert.algebraic_KernelIdeal_ReferenceIdeal := by
  intro m ρ m' ρ' _ hagree
  refine ⟨_, Cert.KernelIdeal.Fr.value_run m ρ, ?_⟩
  refine (θ_run Cert.ReferenceIdeal.defs _ _).mono (fun _ h c => ⟨(h c).1.trans ?_, (h c).2.1, (h c).2.2⟩)
    (Cert.RefValue.run m' ρ')
  rw [(hagree c).1, (hagree c).2, norm_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
